-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x600000 : Shape := ⟨2, ![2, 600000]⟩
abbrev S16x64 : Shape := ⟨2, ![16, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S1x64 : Shape := ⟨2, ![1, 64]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256x64 .f32) (main_arg6 : FVec F S256 .f32) (main_arg7 : FVec F S256 .f32) (main_arg8 : FVec F S1x64 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x16 .f32) (main_arg1 : IVec S2x600000 32) (main_arg2 : FVec F S16x64 .f32) (main_arg3 : FVec F S64 .f32) (main_arg4 : FVec F S256x128 .f32) (main_arg5 : FVec F S256x64 .f32) (main_arg6 : FVec F S256 .f32) (main_arg7 : FVec F S256 .f32) (main_arg8 : FVec F S1x64 .f32) (main_arg9 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x16 : Shape := ⟨2, ![50000, 16]⟩
abbrev S2x600000 : Shape := ⟨2, ![2, 600000]⟩
abbrev S16x64 : Shape := ⟨2, ![16, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S1x64 : Shape := ⟨2, ![1, 64]⟩
abbrev S1 : Shape := ⟨1, ![1]⟩
abbrev S1x600000 : Shape := ⟨2, ![1, 600000]⟩
abbrev S600000 : Shape := ⟨1, ![600000]⟩
abbrev S50000x64 : Shape := ⟨2, ![50000, 64]⟩
abbrev S5000x16 : Shape := ⟨2, ![5000, 16]⟩
abbrev S5000x64 : Shape := ⟨2, ![5000, 64]⟩
abbrev S_ : Shape := ⟨0, ![]⟩
abbrev S50000 : Shape := ⟨1, ![50000]⟩
abbrev S600000x1 : Shape := ⟨2, ![600000, 1]⟩
abbrev S600000x64 : Shape := ⟨2, ![600000, 64]⟩
abbrev S50000x1 : Shape := ⟨2, ![50000, 1]⟩
abbrev S5000x1 : Shape := ⟨2, ![5000, 1]⟩
abbrev S600000x128 : Shape := ⟨2, ![600000, 128]⟩
abbrev S128x256 : Shape := ⟨2, ![128, 256]⟩
abbrev S64x1 : Shape := ⟨2, ![64, 1]⟩
abbrev S1x256 : Shape := ⟨2, ![1, 256]⟩
abbrev S1x1 : Shape := ⟨2, ![1, 1]⟩
abbrev S4800x128 : Shape := ⟨2, ![4800, 128]⟩
abbrev S4800x1 : Shape := ⟨2, ![4800, 1]⟩
abbrev S4800x256 : Shape := ⟨2, ![4800, 256]⟩
abbrev S4800x64 : Shape := ⟨2, ![4800, 64]⟩

abbrev nBuf : Space → Nat
  | .hbm => 89
  | .vmem => 22
  | .smem => 0
  | _ => 0

abbrev bufTy : (tb : Table) → Fin (tcTables nBuf tb) → BufTy
  | .hbm, ⟨0, _⟩ => ⟨S50000x16, .f32⟩
  | .hbm, ⟨1, _⟩ => ⟨S2x600000, .i32⟩
  | .hbm, ⟨2, _⟩ => ⟨S16x64, .f32⟩
  | .hbm, ⟨3, _⟩ => ⟨S64, .f32⟩
  | .hbm, ⟨4, _⟩ => ⟨S256x128, .f32⟩
  | .hbm, ⟨5, _⟩ => ⟨S256x64, .f32⟩
  | .hbm, ⟨6, _⟩ => ⟨S256, .f32⟩
  | .hbm, ⟨7, _⟩ => ⟨S256, .f32⟩
  | .hbm, ⟨8, _⟩ => ⟨S1x64, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S50000x64, .f32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000, .f32⟩
  | .hbm, ⟨43, _⟩ => ⟨S600000, .f32⟩
  | .hbm, ⟨44, _⟩ => ⟨S600000x1, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x64, .f32⟩
  | .hbm, ⟨54, _⟩ => ⟨S600000x64, .f32⟩
  | .hbm, ⟨55, _⟩ => ⟨S600000x64, .f32⟩
  | .hbm, ⟨56, _⟩ => ⟨S_, .f32⟩
  | .hbm, ⟨57, _⟩ => ⟨S50000x64, .f32⟩
  | .hbm, ⟨58, _⟩ => ⟨S600000x1, .i32⟩
  | .hbm, ⟨59, _⟩ => ⟨S50000x64, .f32⟩
  | .hbm, ⟨60, _⟩ => ⟨S50000, .f32⟩
  | .hbm, ⟨61, _⟩ => ⟨S50000x1, .f32⟩
  | .hbm, ⟨62, _⟩ => ⟨S1x64, .f32⟩
  | .hbm, ⟨63, _⟩ => ⟨S50000x64, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x64, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x64, .f32⟩
  | .hbm, ⟨82, _⟩ => ⟨S600000x128, .f32⟩
  | .hbm, ⟨83, _⟩ => ⟨S256, .f32⟩
  | .hbm, ⟨84, _⟩ => ⟨S128x256, .f32⟩
  | .hbm, ⟨85, _⟩ => ⟨S64x1, .f32⟩
  | .hbm, ⟨86, _⟩ => ⟨S1x256, .f32⟩
  | .hbm, ⟨87, _⟩ => ⟨S1x1, .f32⟩
  | .hbm, ⟨88, _⟩ => ⟨S600000x1, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S4800x128, .f32⟩
  | .local _ .vmem, ⟨15, _⟩ => ⟨S4800x128, .f32⟩
  | .local _ .vmem, ⟨16, _⟩ => ⟨S128x256, .f32⟩
  | .local _ .vmem, ⟨17, _⟩ => ⟨S1x256, .f32⟩
  | .local _ .vmem, ⟨18, _⟩ => ⟨S64x1, .f32⟩
  | .local _ .vmem, ⟨19, _⟩ => ⟨S1x1, .f32⟩
  | .local _ .vmem, ⟨20, _⟩ => ⟨S4800x1, .f32⟩
  | .local _ .vmem, ⟨21, _⟩ => ⟨S4800x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4800x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S600000x64_S600000x64_S600000x128_d1 : Shape.Concatenates [S600000x64, S600000x64] S600000x128 1
  transposes_S256x128_S128x256_1_0 : S256x128.Transposes [1, 0] S128x256
  transposes_S1x64_S64x1_1_0 : S1x64.Transposes [1, 0] S64x1
  shapeCasts_S256_S1x256 : S256.ShapeCasts S1x256
  shapeCasts_S1_S1x1 : S1.ShapeCasts S1x1
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4800x256 : S1x256.Broadcasts S4800x256
  slices_S4800x256_o0_0_S4800x64 : S4800x256.Slices ![0, 0] S4800x64
  slices_S4800x256_o0_64_S4800x64 : S4800x256.Slices ![0, 64] S4800x64
  slices_S4800x256_o0_128_S4800x64 : S4800x256.Slices ![0, 128] S4800x64
  slices_S4800x256_o0_192_S4800x64 : S4800x256.Slices ![0, 192] S4800x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4800x1 : S1x1.Broadcasts S4800x1
  inb_S4800x1_S4800x1_0_0 : ∀ a, (![0, 0] : Fin 2 → Nat) a + S4800x1.size a ≤ S4800x1.size a
  h_S4800x1 : 0 < S4800x1.numel
  dot_S5000x16_S16x64_S5000x64_1_0_0_1_n_n_wf : DotDims.WF S5000x16 S16x64 S5000x64 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S4800x128_S128x256_S4800x256_1_0_0_1_n_n_wf : DotDims.WF S4800x128 S128x256 S4800x256 [1] [0] [0] [1] [] []
  dot_S4800x64_S64x1_S4800x1_1_0_0_1_n_n_wf : DotDims.WF S4800x64 S64x1 S4800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4800x128.size a ≤ S600000x128.size a
  hwx2_0 : ∀ i : grid2.Coords, EltTy.bits .f32 = 32 ∨ (Rect.block (s := S600000x128) S4800x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4800x1.size a ≤ S600000x1.size a
  hwx2_5 : ∀ i : grid2.Coords, EltTy.bits .f32 = 32 ∨ (Rect.block (s := S600000x1) S4800x1.size (cc2_transform_5 i) (hinb2_5 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S4800x128_S128x256_S4800x256_1_0_0_1_n_n : DotDims S4800x128 S128x256 S4800x256 where
  lhsContracting := [1]
  rhsContracting := [0]
  lhsNonContracting := [0]
  rhsNonContracting := [1]
  lhsBatch := []
  rhsBatch := []
  wf := dot_S4800x128_S128x256_S4800x256_1_0_0_1_n_n_wf
def dot_S4800x64_S64x1_S4800x1_1_0_0_1_n_n : DotDims S4800x64 S64x1 S4800x1 where
  lhsContracting := [1]
  rhsContracting := [0]
  lhsNonContracting := [0]
  rhsNonContracting := [1]
  lhsBatch := []
  rhsBatch := []
  wf := dot_S4800x64_S64x1_S4800x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S4800x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S4800x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x600000 : Shape := ⟨2, ![2, 600000]⟩
abbrev S16x64 : Shape := ⟨2, ![16, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S1x64 : Shape := ⟨2, ![1, 64]⟩
abbrev S1 : Shape := ⟨1, ![1]⟩
abbrev S1x600000 : Shape := ⟨2, ![1, 600000]⟩
abbrev S600000 : Shape := ⟨1, ![600000]⟩
abbrev S50000x64 : Shape := ⟨2, ![50000, 64]⟩
abbrev S_ : Shape := ⟨0, ![]⟩
abbrev S50000 : Shape := ⟨1, ![50000]⟩
abbrev S600000x1 : Shape := ⟨2, ![600000, 1]⟩
abbrev S600000x64 : Shape := ⟨2, ![600000, 64]⟩
abbrev S50000x1 : Shape := ⟨2, ![50000, 1]⟩
abbrev S600000x128 : Shape := ⟨2, ![600000, 128]⟩
abbrev S128x256 : Shape := ⟨2, ![128, 256]⟩
abbrev S600000x256 : Shape := ⟨2, ![600000, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x600000, .i32⟩
  | .hbm, ⟨2, _⟩ => ⟨S16x64, .f32⟩
  | .hbm, ⟨3, _⟩ => ⟨S64, .f32⟩
  | .hbm, ⟨4, _⟩ => ⟨S256x128, .f32⟩
  | .hbm, ⟨5, _⟩ => ⟨S256x64, .f32⟩
  | .hbm, ⟨6, _⟩ => ⟨S256, .f32⟩
  | .hbm, ⟨7, _⟩ => ⟨S256, .f32⟩
  | .hbm, ⟨8, _⟩ => ⟨S1x64, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S50000x64, .f32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000, .f32⟩
  | .hbm, ⟨43, _⟩ => ⟨S600000, .f32⟩
  | .hbm, ⟨44, _⟩ => ⟨S600000x1, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x64, .f32⟩
  | .hbm, ⟨54, _⟩ => ⟨S600000x64, .f32⟩
  | .hbm, ⟨55, _⟩ => ⟨S600000x64, .f32⟩
  | .hbm, ⟨56, _⟩ => ⟨S_, .f32⟩
  | .hbm, ⟨57, _⟩ => ⟨S50000x64, .f32⟩
  | .hbm, ⟨58, _⟩ => ⟨S600000x1, .i32⟩
  | .hbm, ⟨59, _⟩ => ⟨S50000x64, .f32⟩
  | .hbm, ⟨60, _⟩ => ⟨S50000, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x64, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x64, .f32⟩
  | .hbm, ⟨89, _⟩ => ⟨S600000x128, .f32⟩
  | .hbm, ⟨90, _⟩ => ⟨S128x256, .f32⟩
  | .hbm, ⟨91, _⟩ => ⟨S600000x256, .f32⟩
  | .hbm, ⟨92, _⟩ => ⟨S256, .f32⟩
  | .hbm, ⟨93, _⟩ => ⟨S1x256, .f32⟩
  | .hbm, ⟨94, _⟩ => ⟨S600000x256, .f32⟩
  | .hbm, ⟨95, _⟩ => ⟨S600000x256, .f32⟩
  | .hbm, ⟨96, _⟩ => ⟨S600000x64, .f32⟩
  | .hbm, ⟨97, _⟩ => ⟨S600000x64, .f32⟩
  | .hbm, ⟨98, _⟩ => ⟨S600000x64, .f32⟩
  | .hbm, ⟨99, _⟩ => ⟨S600000x64, .f32⟩
  | .hbm, ⟨100, _⟩ => ⟨S600000x64, .f32⟩
  | .hbm, ⟨101, _⟩ => ⟨S600000x64, .f32⟩
  | .hbm, ⟨102, _⟩ => ⟨S_, .f32⟩
  | .hbm, ⟨103, _⟩ => ⟨S600000x64, .f32⟩
  | .hbm, ⟨104, _⟩ => ⟨S600000x64, .f32⟩
  | .hbm, ⟨105, _⟩ => ⟨S_, .f32⟩
  | .hbm, ⟨106, _⟩ => ⟨S600000x64, .f32⟩
  | .hbm, ⟨107, _⟩ => ⟨S600000x64, .f32⟩
  | .hbm, ⟨108, _⟩ => ⟨S600000x64, .f32⟩
  | .hbm, ⟨109, _⟩ => ⟨S600000x64, .f32⟩
  | .hbm, ⟨110, _⟩ => ⟨S600000x64, .f32⟩
  | .hbm, ⟨111, _⟩ => ⟨S600000x64, .f32⟩
  | .hbm, ⟨112, _⟩ => ⟨S_, .f32⟩
  | .hbm, ⟨113, _⟩ => ⟨S600000x64, .f32⟩
  | .hbm, ⟨114, _⟩ => ⟨S600000x64, .f32⟩
  | .hbm, ⟨115, _⟩ => ⟨S_, .f32⟩
  | .hbm, ⟨116, _⟩ => ⟨S600000x64, .f32⟩
  | .hbm, ⟨117, _⟩ => ⟨S600000x64, .f32⟩
  | .hbm, ⟨118, _⟩ => ⟨S600000x64, .f32⟩
  | .hbm, ⟨119, _⟩ => ⟨S600000x64, .f32⟩
  | .hbm, ⟨120, _⟩ => ⟨S64x1, .f32⟩
  | .hbm, ⟨121, _⟩ => ⟨S600000x1, .f32⟩
  | .hbm, ⟨122, _⟩ => ⟨S1x1, .f32⟩
  | .hbm, ⟨123, _⟩ => ⟨S600000x1, .f32⟩
  | .hbm, ⟨124, _⟩ => ⟨S600000x1, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_12 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S600000x64_S600000x64_S600000x128_d1 : Shape.Concatenates [S600000x64, S600000x64] S600000x128 1
  transposes_S256x128_S128x256_1_0 : S256x128.Transposes [1, 0] S128x256
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  slices_S600000x256_S600000x64_0_0 : S600000x256.Slices ![0, 0] S600000x64
  slices_S600000x256_S600000x64_0_64 : S600000x256.Slices ![0, 64] S600000x64
  slices_S600000x256_S600000x64_0_128 : S600000x256.Slices ![0, 128] S600000x64
  slices_S600000x256_S600000x64_0_192 : S600000x256.Slices ![0, 192] S600000x64
  bcast_S_S600000x64 : S_.BroadcastsInDim S600000x64 (![] : Fin 0 → Fin S600000x64.rank)
  transposes_S1x64_S64x1_1_0 : S1x64.Transposes [1, 0] S64x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  dot_S50000x16_S16x64_S50000x64_1_0_0_1_n_n_wf : DotDims.WF S50000x16 S16x64 S50000x64 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S600000x128_S128x256_S600000x256_1_0_0_1_n_n_wf : DotDims.WF S600000x128 S128x256 S600000x256 [1] [0] [0] [1] [] []
  dot_S600000x64_S64x1_S600000x1_1_0_0_1_n_n_wf : DotDims.WF S600000x64 S64x1 S600000x1 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x64_S64x1_S600000x1_1_0_0_1_n_n : DotDims S600000x64 S64x1 S600000x1 where
  lhsContracting := [1]
  rhsContracting := [0]
  lhsNonContracting := [0]
  rhsNonContracting := [1]
  lhsBatch := []
  rhsBatch := []
  wf := dot_S600000x64_S64x1_S600000x1_1_0_0_1_n_n_wf

class Facts : Prop extends Facts₀ where

variable [Facts]
-- ==== Proof.Stages.lean ====
/-
  The computation both programs perform, cut into stages: each stage is one whole-array function of the arrays it
  reads, spelt with the host operations of the reference program. The graph convolution: the edge list's two rows
  (`rowIx`, `colIx`), a node index wrapped once from a negative value (`wrap`), the inverse square root of the degree
  counted with the self loop (`dinv`), the edge weight `dinv[row] * dinv[col]` (`norm`), the node features times the
  weight matrix (`xw`), the weighted messages summed into their target nodes (`agg`), and
  `max (agg + dinv² · xw + bias) 0` (`embR`, over the column of squares and the bias row as arrays of rank two). Then
  the edge features, the two gathered node embeddings side by side (`ef`); the four gates `ef · w_ihᵀ + (b_ih + b_hh)`
  (`gates`); one recurrent step from the zero state, `σ(o) · tanh (σ(i) · tanh g)` with `σ x = 1 / (1 + exp (-x))`
  (`sig`, `hid`); and the last linear map (`headR`). `out` composes them.
-/
import proofs.«172844_j25838523253465_1_alg».proof.Proof.Gen.ReferenceIdeal

noncomputable section

namespace Cert.Stages

open Cert.ReferenceIdeal Cert.ReferenceIdeal.Gen Idealize.ShloMosaic Idealize.ShloMosaic.TcCoe Idealize.SL.Sem

variable {F : FTy → Type} [FloatOps F]

/-- Row 0 of the edge list: the source node of each edge. -/
def rowIx (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- Row 1 of the edge list: the target node of each edge. -/
def colIx (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- A node index as a gather takes it: a negative index counted from the end (plus 50000), as a column. -/
def wrap (ix : (⟨S600000, .i32⟩ : BufTy).Contents (Elt F)) : (⟨S600000x1, .i32⟩ : BufTy).Contents (Elt F) :=
  broadcastInDim S600000x1 ![0] bcast_S600000_S600000x1_0 (select (cmpi .slt ix (broadcastInDim S600000 ![] bcast_S_S600000 (constantI S_ 32 0#32))) (addi ix (broadcastInDim S600000 ![] bcast_S_S600000 (constantI S_ 32 50000#32))) ix)

/-- A node index as a scatter takes it: as a column, unchanged. -/
def asCol (ix : (⟨S600000, .i32⟩ : BufTy).Contents (Elt F)) : (⟨S600000x1, .i32⟩ : BufTy).Contents (Elt F) :=
  broadcastInDim S600000x1 ![0] bcast_S600000_S600000x1_0 ix

/-- `1 / sqrt (deg + 1)` per node, `deg` the number of edges into the node. -/
def dinv (col : (⟨S600000, .i32⟩ : BufTy).Contents (Elt F)) : (⟨S50000, .f32⟩ : BufTy).Contents (Elt F) :=
  Host.rsqrt (addf (Host.scatterAdd scatter_S50000_S600000x1_S600000_n_0_0_1 (broadcastInDim S50000 ![] bcast_S_S50000 (constant S_ .f32 0x00000000#32)) (asCol col) (broadcastInDim S600000 ![] bcast_S_S600000 (constant S_ .f32 0x3F800000#32))) (broadcastInDim S50000 ![] bcast_S_S50000 (constant S_ .f32 0x3F800000#32)))

/-- The weight of each edge: `dinv[row] * dinv[col]`. -/
def norm (row col : (⟨S600000, .i32⟩ : BufTy).Contents (Elt F)) : (⟨S600000, .f32⟩ : BufTy).Contents (Elt F) :=
  mulf (Host.gather gather_S50000_S600000x1_S600000_n_0_n_n_0_1_1 (dinv col) (wrap row)) (Host.gather gather_S50000_S600000x1_S600000_n_0_n_n_0_1_1 (dinv col) (wrap col))

/-- The node features times the weight matrix. -/
def xw (x : (⟨S50000x16, .f32⟩ : BufTy).Contents (Elt F)) (w : (⟨S16x64, .f32⟩ : BufTy).Contents (Elt F)) : (⟨S50000x64, .f32⟩ : BufTy).Contents (Elt F) :=
  Host.dotGeneral dot_S50000x16_S16x64_S50000x64_1_0_0_1_n_n none x w

/-- The weighted messages `norm[e] * xw[row[e]]` summed into node `col[e]`. -/
def agg (xwv : (⟨S50000x64, .f32⟩ : BufTy).Contents (Elt F)) (row col : (⟨S600000, .i32⟩ : BufTy).Contents (Elt F)) : (⟨S50000x64, .f32⟩ : BufTy).Contents (Elt F) :=
  Host.scatterAdd scatter_S50000x64_S600000x1_S600000x64_1_0_0_1 (broadcastInDim S50000x64 ![] bcast_S_S50000x64 (constant S_ .f32 0x00000000#32)) (asCol col) (mulf (broadcastInDim S600000x64 ![0, 1] bcast_S600000x1_S600000x64_0_1 (broadcastInDim S600000x1 ![0] bcast_S600000_S600000x1_0 (norm row col))) (Host.gather gather_S50000x64_S600000x1_S600000x64_1_0_n_n_0_1_164 xwv (wrap row)))

/-- `dinv²` per node. -/
def d2 (col : (⟨S600000, .i32⟩ : BufTy).Contents (Elt F)) : (⟨S50000, .f32⟩ : BufTy).Contents (Elt F) := mulf (dinv col) (dinv col)

/-- The node embedding `max (a + d2col · xw + brow) 0`, the column `d2col` spread along the rows and the row `brow`
    down the columns. -/
def embR (a xwv : (⟨S50000x64, .f32⟩ : BufTy).Contents (Elt F)) (d2col : (⟨S50000x1, .f32⟩ : BufTy).Contents (Elt F)) (brow : (⟨S1x64, .f32⟩ : BufTy).Contents (Elt F)) : (⟨S50000x64, .f32⟩ : BufTy).Contents (Elt F) :=
  maximumf (addf (addf a (mulf (broadcastInDim S50000x64 ![0, 1] bcast_S50000x1_S50000x64_0_1 d2col) xwv)) (broadcastInDim S50000x64 ![0, 1] bcast_S1x64_S50000x64_0_1 brow)) (broadcastInDim S50000x64 ![] bcast_S_S50000x64 (constant S_ .f32 0x00000000#32))

/-- The edge features: the embeddings of an edge's two ends, side by side. -/
def ef (e : (⟨S50000x64, .f32⟩ : BufTy).Contents (Elt F)) (row col : (⟨S600000, .i32⟩ : BufTy).Contents (Elt F)) : (⟨S600000x128, .f32⟩ : BufTy).Contents (Elt F) :=
  concatenate S600000x128 1 [⟨S600000x64, Host.gather gather_S50000x64_S600000x1_S600000x64_1_0_n_n_0_1_164 e (wrap row)⟩, ⟨S600000x64, Host.gather gather_S50000x64_S600000x1_S600000x64_1_0_n_n_0_1_164 e (wrap col)⟩] concatenates_S600000x64_S600000x64_S600000x128_d1

/-- The four gates of every edge: `efv · wT + bhrow`, the bias row down the columns. -/
def gates (efv : (⟨S600000x128, .f32⟩ : BufTy).Contents (Elt F)) (wT : (⟨S128x256, .f32⟩ : BufTy).Contents (Elt F)) (bhrow : (⟨S1x256, .f32⟩ : BufTy).Contents (Elt F)) : (⟨S600000x256, .f32⟩ : BufTy).Contents (Elt F) :=
  addf (Host.dotGeneral dot_S600000x128_S128x256_S600000x256_1_0_0_1_n_n none efv wT) (broadcastInDim S600000x256 ![0, 1] bcast_S1x256_S600000x256_0_1 bhrow)

/-- The logistic function, spelt `1 / (1 + exp (-x))`. -/
def sig (x : (⟨S600000x64, .f32⟩ : BufTy).Contents (Elt F)) : (⟨S600000x64, .f32⟩ : BufTy).Contents (Elt F) :=
  Host.divf (broadcastInDim S600000x64 ![] bcast_S_S600000x64 (constant S_ .f32 0x3F800000#32)) (addf (broadcastInDim S600000x64 ![] bcast_S_S600000x64 (constant S_ .f32 0x3F800000#32)) (Host.exp (Host.negf x)))

/-- One recurrent step from the zero state: `σ(o) · tanh (σ(i) · tanh g)`, the gates `i`, `g`, `o` the column ranges
    0–63, 128–191 and 192–255 of `g4`. -/
def hid (g4 : (⟨S600000x256, .f32⟩ : BufTy).Contents (Elt F)) : (⟨S600000x64, .f32⟩ : BufTy).Contents (Elt F) :=
  mulf (sig (extractStridedSlice S600000x64 ![0, 192] g4 slices_S600000x256_S600000x64_0_192)) (Host.tanh (mulf (sig (extractStridedSlice S600000x64 ![0, 0] g4 slices_S600000x256_S600000x64_0_0)) (Host.tanh (extractStridedSlice S600000x64 ![0, 128] g4 slices_S600000x256_S600000x64_0_128))))

/-- The result: the hidden state times the last weight column, plus the last bias. -/
def headR (efv : (⟨S600000x128, .f32⟩ : BufTy).Contents (Elt F)) (wT : (⟨S128x256, .f32⟩ : BufTy).Contents (Elt F)) (bhrow : (⟨S1x256, .f32⟩ : BufTy).Contents (Elt F)) (fT : (⟨S64x1, .f32⟩ : BufTy).Contents (Elt F)) (fb11 : (⟨S1x1, .f32⟩ : BufTy).Contents (Elt F)) : (⟨S600000x1, .f32⟩ : BufTy).Contents (Elt F) :=
  addf (Host.dotGeneral dot_S600000x64_S64x1_S600000x1_1_0_0_1_n_n none (hid (gates efv wT bhrow)) fT) (broadcastInDim S600000x1 ![0, 1] bcast_S1x1_S600000x1_0_1 fb11)

/-- The node embeddings from the arguments. -/
def embOf (a0 : (⟨S50000x16, .f32⟩ : BufTy).Contents (Elt F)) (a1 : (⟨S2x600000, .i32⟩ : BufTy).Contents (Elt F)) (a2 : (⟨S16x64, .f32⟩ : BufTy).Contents (Elt F)) (a3 : (⟨S64, .f32⟩ : BufTy).Contents (Elt F)) : (⟨S50000x64, .f32⟩ : BufTy).Contents (Elt F) :=
  embR (agg (xw a0 a2) (rowIx a1) (colIx a1)) (xw a0 a2) (broadcastInDim S50000x1 ![0] bcast_S50000_S50000x1_0 (d2 (colIx a1))) (broadcastInDim S1x64 ![1] bcast_S64_S1x64_1 a3)

/-- The whole computation, from the arguments (the recurrent weights `w_hh` meet the zero state and do not enter). -/
def out (a0 : (⟨S50000x16, .f32⟩ : BufTy).Contents (Elt F)) (a1 : (⟨S2x600000, .i32⟩ : BufTy).Contents (Elt F)) (a2 : (⟨S16x64, .f32⟩ : BufTy).Contents (Elt F)) (a3 : (⟨S64, .f32⟩ : BufTy).Contents (Elt F)) (a4 : (⟨S256x128, .f32⟩ : BufTy).Contents (Elt F))
    (a6 a7 : (⟨S256, .f32⟩ : BufTy).Contents (Elt F)) (a8 : (⟨S1x64, .f32⟩ : BufTy).Contents (Elt F)) (a9 : (⟨S1, .f32⟩ : BufTy).Contents (Elt F)) : (⟨S600000x1, .f32⟩ : BufTy).Contents (Elt F) :=
  headR (ef (embOf a0 a1 a2 a3) (rowIx a1) (colIx a1)) (transpose S128x256 [1, 0] a4 transposes_S256x128_S128x256_1_0) (broadcastInDim S1x256 ![1] bcast_S256_S1x256_1 (addf a6 a7)) (transpose S64x1 [1, 0] a8 transposes_S1x64_S64x1_1_0) (broadcastInDim S1x1 ![1] bcast_S1_S1x1_1 a9)

end Cert.Stages

end
-- ==== Proof.Region0.lean ====
/-
  The first launch: ten row blocks of 5000 rows; each point multiplies its block of the node features by the whole
  weight matrix. So row `r` of the result is row `r` of the features times the matrix, whichever block `r` lies in,
  and the array the launch leaves is the whole product.
-/
import proofs.«172844_j25838523253465_1_alg».proof.Proof.Gen.KernelIdeal.Frame
import proofs.«172844_j25838523253465_1_alg».proof.Proof.Stages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

noncomputable section

namespace Cert.Region0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

section Pieces

open Idealize.ShloMosaic.ValueIdx

/-! ## The product as one function of the two arrays -/

/-- Entry (r, q) of the features times the weights: row r of the features against column q of the weights, summed
    over the 16 coordinates they share. -/
private def prod (x : (⟨S50000x16, .f32⟩ : BufTy).Contents (Elt Ideal)) (w : (⟨S16x64, .f32⟩ : BufTy).Contents (Elt Ideal)) :
    (⟨S50000x64, .f32⟩ : BufTy).Contents (Elt Ideal) :=
  fun i => ∑ k : Fin 16, x (ix2 (i 0) k) * w (ix2 k (i 1))

/-- The reference's product is that function: its one contracted axis is the shared coordinate. -/
private theorem xw_eq_prod (x : (⟨S50000x16, .f32⟩ : BufTy).Contents (Elt Ideal)) (w : (⟨S16x64, .f32⟩ : BufTy).Contents (Elt Ideal)) :
    Cert.Stages.xw (F := Ideal) x w = prod x w := by
  funext i
  obtain ⟨r, q, rfl⟩ : ∃ (r : Fin 50000) (q : Fin 64), i = ix2 r q := ⟨i 0, i 1, eq_ix2 i⟩
  exact StackMember.dotGeneral_plain_apply (m := 50000) (n := 64) (k := 16) none x w r q

/-! ## What one point computes -/

/-- The body's product of a block of 5000 rows by the matrix, at entry (p, q): the same sum over the shared
    coordinate. The two roundings to bf16 keep the ideal values, and the product accumulates into zeros. -/
private theorem pay_apply (x0 : Vec Ideal S5000x16 .f32) (x1 : Vec Ideal S16x64 .f32) (p : Fin 5000) (q : Fin 64) :
    k0_pay1 (F := Ideal) x0 x1 (ix2 p q) = ∑ k : Fin 16, x0 (ix2 p k) * x1 (ix2 k q) := by
  unfold k0_pay1
  rw [matmul_zero_eq_dotGeneral]
  exact StackMember.dotGeneral_plain_apply (m := 5000) (n := 64) (k := 16) none _ _ p q

/-- The zero offsets of a whole-buffer access. -/
private theorem zeros2 : (![0, 0] : Fin 2 → Nat) = fun _ => 0 := funext fun a => by fin_cases a <;> rfl

/-- The windows' index maps, decided over the ten points: the feature window and the output window are at row block
    t, column block 0; the weight window is at block (0, 0). -/
private theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block is some point's. -/
private theorem idx_onto : ∀ (b : Fin 10), ∃ t : Fin cfg0.N, win0_2.index t = ![b.val, 0] :=
  (by decide +kernel : ∀ (b : Fin 10), ∃ t : Fin grid0.N, win0_2.index t = ![b.val, 0])

/-- What point t writes back is block t of the product of the two arrays as the launch finds them. -/
private theorem flushed_eq (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeros2]
  simp only [View.ld_unit_zero (S := S5000x16) zeros2, View.ld_unit_zero (S := S16x64) zeros2]
  obtain ⟨e0, e1, e2, e3, e4, e5⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = prod (V c main_arg0) (V c main_arg2) (((cfg0.win 2).blk t).view.emb (ix2 p q))
  rw [pay_apply]
  unfold prod
  refine Finset.sum_congr rfl fun k _ => ?_
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 16 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 16 + 1 * k.val = k.val; omega
    | ⟨1, _⟩ => show win0_1.index t (1 : Fin 2) * 64 + 1 * q.val = win0_2.index t (1 : Fin 2) * 64 + 1 * q.val; omega
  have r0 : iblk0 V c 0 t (ix2 p k) = V c main_arg0 (ix2 (((cfg0.win 2).blk t).view.emb (ix2 p q) 0) k) := by
    show V c main_arg0 (((cfg0.win 0).blk t).view.emb (ix2 p k)) = _
    rw [h0]; rfl
  have r1 : iblk0 V c 1 t (ix2 k q) = V c main_arg2 (ix2 k (((cfg0.win 2).blk t).view.emb (ix2 p q) 1)) := by
    show V c main_arg2 (((cfg0.win 1).blk t).view.emb (ix2 k q)) = _
    rw [h1]; rfl
  exact congrArg₂ (· * ·) r0 r1

/-! ## From the blocks to the array -/

/-- An entry of the output array is in point t's block iff each coordinate is in the block's range on its axis. -/
private theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every entry of the output array lies in some point's block: row r in the block of point r / 5000, and the one
    column block holds all 64 columns. -/
private theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- So the array the launch leaves is the product. -/
private theorem array_eq_prod (c : Dev nD) :
    (dat0 (F := Ideal) V c).arrAt 2 cfg0.N = prod (V c main_arg0) (V c main_arg2) :=
  (dat0 V c).arrAt_eq_of_cover 2 (prod (V c main_arg0) (V c main_arg2)) (fun t _ => flushed_eq V c t) cover

end Pieces

/-- The array the first launch leaves in its output window is the features times the weights, from whatever the
    launch finds in its two input arrays. -/
theorem array (c : Dev nD) :
    (dat0 (F := Ideal) V c).arrAt 2 cfg0.N = Cert.Stages.xw (F := Ideal) (V c main_arg0) (V c main_arg2) := by
  exact (array_eq_prod V c).trans (xw_eq_prod (V c main_arg0) (V c main_arg2)).symm

end Cert.Region0

end
-- ==== Proof.Region1.lean ====
/-
  The second launch: ten row blocks of 5000 rows; each point computes `max (agg + dinv² · xw + bias) 0` entry by entry
  on its block, the column of squares spread along the row and the bias row spread down the block. Entry by entry
  this is the same function of the whole arrays, so the array the launch leaves is that function of the arrays.
-/
import proofs.«172844_j25838523253465_1_alg».proof.Proof.Gen.KernelIdeal.Frame
import proofs.«172844_j25838523253465_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole-buffer access are the constant zero. -/
private theorem hz : (![0, 0] : Fin 2 → Nat) = fun _ => 0 := funext fun a => by fin_cases a <;> rfl

/-- The node embedding entry by entry: entry `(r, q)` is `max (a (r, q) + d2col (r, 0) · xwv (r, q) + brow (0, q)) 0`. -/
private def emb (a xwv : FVec Ideal S50000x64 .f32) (d2col : FVec Ideal S50000x1 .f32) (brow : FVec Ideal S1x64 .f32) :
    FVec Ideal S50000x64 .f32 :=
  fun i => max (a i + d2col (ValueIdx.ix2 (i 0) 0) * xwv i + brow (ValueIdx.ix2 0 (i 1))) (Ideal.ofBits .f32 0x00000000#32)

/-- The column of a block spread along the rows reads, at `(p, q)`, the column's entry `(p, 0)`. -/
private theorem col_spread (x : FVec Ideal S5000x1 .f32) (j : S5000x64.Idx) :
    broadcastTo S5000x64 x broadcasts_S5000x1_S5000x64 j = x (ValueIdx.ix2 (j 0) 0) := by
  refine broadcastTo_apply x _ j _ fun a => ?_
  match a with
  | ⟨0, _⟩ => rfl
  | ⟨1, _⟩ => rfl

/-- The row spread down a block reads, at `(p, q)`, the row's entry `(0, q)`. -/
private theorem row_spread (x : FVec Ideal S1x64 .f32) (j : S5000x64.Idx) :
    broadcastTo S5000x64 x broadcasts_S1x64_S5000x64 j = x (ValueIdx.ix2 0 (j 1)) := by
  refine broadcastTo_apply x _ j _ fun a => ?_
  match a with
  | ⟨0, _⟩ => rfl
  | ⟨1, _⟩ => rfl

/-- The body's arithmetic at an entry `(p, q)` of its block: `max (x0 (p, q) + x2 (p, 0) · x1 (p, q) + x3 (0, q)) 0`. -/
private theorem pay_apply (x0 x1 : FVec Ideal S5000x64 .f32) (x2 : FVec Ideal S5000x1 .f32) (x3 : FVec Ideal S1x64 .f32)
    (j : S5000x64.Idx) :
    k1_pay1 (F := Ideal) x0 x2 x1 x3 j
      = max (x0 j + x2 (ValueIdx.ix2 (j 0) 0) * x1 j + x3 (ValueIdx.ix2 0 (j 1))) (Ideal.ofBits .f32 0x00000000#32) := by
  unfold k1_pay1
  simp only [shapeCast_self]
  show max (x0 j + broadcastTo S5000x64 x2 broadcasts_S5000x1_S5000x64 j * x1 j
      + broadcastTo S5000x64 x3 broadcasts_S1x64_S5000x64 j) (Ideal.ofBits .f32 0x00000000#32) = _
  rw [col_spread, row_spread]

/-- The index maps over the grid: at point `t` windows 0, 1, 2 and 4 sit at row block `t`, column block 0; window 3 at
    block `(0, 0)`. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `5000 t … 5000 t + 4999` of the aggregate. -/
private theorem blk_agg (c : Dev nD) (t : Fin cfg1.N) (x : S5000x64.Idx) (k : S50000x64.Idx)
    (hk0 : (k 0).val = 5000 * t.val + (x 0).val) (hk1 : (k 1).val = (x 1).val) :
    (iblk1 (F := Ideal) V c 0 t : FVec Ideal S5000x64 .f32) x = (V c main_v39 : FVec Ideal S50000x64 .f32) k := by
  obtain ⟨e00, e01, -⟩ := idx_facts t
  unfold iblk1
  rw [View.read_apply]
  show V c main_v39 _ = V c main_v39 _
  congr 1
  funext a
  apply Fin.ext
  match a with
  | ⟨0, _⟩ => show win1_0.index t (0 : Fin 2) * 5000 + 1 * (x 0).val = (k 0).val; rw [e00, hk0]; omega
  | ⟨1, _⟩ => show win1_0.index t (1 : Fin 2) * 64 + 1 * (x 1).val = (k 1).val; rw [e01, hk1]; omega

/-- Window 1's block at point `t` is rows `5000 t … 5000 t + 4999` of the product. -/
private theorem blk_prod (c : Dev nD) (t : Fin cfg1.N) (x : S5000x64.Idx) (k : S50000x64.Idx)
    (hk0 : (k 0).val = 5000 * t.val + (x 0).val) (hk1 : (k 1).val = (x 1).val) :
    (iblk1 (F := Ideal) V c 1 t : FVec Ideal S5000x64 .f32) x = (V c main_v4 : FVec Ideal S50000x64 .f32) k := by
  obtain ⟨-, -, e10, e11, -⟩ := idx_facts t
  unfold iblk1
  rw [View.read_apply]
  show V c main_v4 _ = V c main_v4 _
  congr 1
  funext a
  apply Fin.ext
  match a with
  | ⟨0, _⟩ => show win1_1.index t (0 : Fin 2) * 5000 + 1 * (x 0).val = (k 0).val; rw [e10, hk0]; omega
  | ⟨1, _⟩ => show win1_1.index t (1 : Fin 2) * 64 + 1 * (x 1).val = (k 1).val; rw [e11, hk1]; omega

/-- Window 2's block at point `t` is rows `5000 t … 5000 t + 4999` of the column of squares. -/
private theorem blk_col (c : Dev nD) (t : Fin cfg1.N) (x : S5000x1.Idx) (k : S50000x1.Idx)
    (hk0 : (k 0).val = 5000 * t.val + (x 0).val) :
    (iblk1 (F := Ideal) V c 2 t : FVec Ideal S5000x1 .f32) x = (V c main_v41 : FVec Ideal S50000x1 .f32) k := by
  obtain ⟨-, -, -, -, e20, e21, -⟩ := idx_facts t
  unfold iblk1
  rw [View.read_apply]
  show V c main_v41 _ = V c main_v41 _
  congr 1
  funext a
  apply Fin.ext
  match a with
  | ⟨0, _⟩ => show win1_2.index t (0 : Fin 2) * 5000 + 1 * (x 0).val = (k 0).val; rw [e20, hk0]; omega
  | ⟨1, _⟩ =>
    show win1_2.index t (1 : Fin 2) * 1 + 1 * (x 1).val = (k 1).val
    have hx : (x 1).val < 1 := (x 1).isLt
    have hk : (k 1).val < 1 := (k 1).isLt
    rw [e21]; omega

/-- Window 3's block at every point is the whole bias row. -/
private theorem blk_row (c : Dev nD) (t : Fin cfg1.N) (x : S1x64.Idx) (k : S1x64.Idx) (hk1 : (k 1).val = (x 1).val) :
    (iblk1 (F := Ideal) V c 3 t : FVec Ideal S1x64 .f32) x = (V c main_v42 : FVec Ideal S1x64 .f32) k := by
  obtain ⟨-, -, -, -, -, -, e30, e31, -⟩ := idx_facts t
  unfold iblk1
  rw [View.read_apply]
  show V c main_v42 _ = V c main_v42 _
  congr 1
  funext a
  apply Fin.ext
  match a with
  | ⟨0, _⟩ =>
    show win1_3.index t (0 : Fin 2) * 1 + 1 * (x 0).val = (k 0).val
    have hx : (x 0).val < 1 := (x 0).isLt
    have hk : (k 0).val < 1 := (k 0).isLt
    rw [e30]; omega
  | ⟨1, _⟩ => show win1_3.index t (1 : Fin 2) * 64 + 1 * (x 1).val = (k 1).val; rw [e31, hk1]; omega

/-- What point `t` writes back is block `t` of the node embedding of the four arrays as the launch finds them. -/
private theorem flushed_eq (c : Dev nD) (t : Fin cfg1.N) :
    (dat1 (F := Ideal) V c).flushed 4 t
      = ((cfg1.win 4).blk t).view.read (Elt Ideal) (emb (V c main_v39) (V c main_v4) (V c main_v41) (V c main_v42)) := by
  show (cfg1.win 4).cut (grid1.coords t) ((dat1 (F := Ideal) V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨-, -, -, -, -, -, -, -, e40, e41⟩ := idx_facts t
  funext j
  show k1_pay1 (F := Ideal) (iblk1 V c 0 t) (iblk1 V c 2 t) (iblk1 V c 1 t) (iblk1 V c 3 t) j
      = emb (V c main_v39) (V c main_v4) (V c main_v41) (V c main_v42) (((cfg1.win 4).blk t).view.emb j)
  refine (pay_apply _ _ _ _ j).trans ?_
  have hE0 : ((((cfg1.win 4).blk t).view.emb j) 0).val = 5000 * t.val + (j 0).val := by
    show win1_4.index t (0 : Fin 2) * 5000 + 1 * (j 0).val = _
    rw [e40]; omega
  have hE1 : ((((cfg1.win 4).blk t).view.emb j) 1).val = (j 1).val := by
    show win1_4.index t (1 : Fin 2) * 64 + 1 * (j 1).val = _
    rw [e41]; omega
  rw [blk_agg V c t j (((cfg1.win 4).blk t).view.emb j) hE0 hE1,
    blk_prod V c t j (((cfg1.win 4).blk t).view.emb j) hE0 hE1,
    blk_col V c t (ValueIdx.ix2 (j 0) 0) (ValueIdx.ix2 ((((cfg1.win 4).blk t).view.emb j) 0) 0) hE0,
    blk_row V c t (ValueIdx.ix2 0 (j 1)) (ValueIdx.ix2 0 ((((cfg1.win 4).blk t).view.emb j) 1)) hE1]
  rfl

/-- An entry of the array is in point `t`'s block iff each coordinate is in the block's range on its axis. -/
private theorem mem_blk (t : Fin cfg1.N) (i : S50000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v43).slice (win1_4.rect t)).set ↔ _
  rw [View.set_slice_whole, Rect.mem_set_unit]
  exact Iff.rfl

/-- Row `r` of the array is in the block of point `r / 5000`: the ten row blocks tile the array. -/
private theorem cover (i : S50000x64.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 64 := (i 1).isLt
  let t : Fin cfg1.N := ⟨(i 0).val / 5000, by omega⟩
  have ht : t.val = (i 0).val / 5000 := rfl
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e40]; omega
  | ⟨1, _⟩ =>
    show win1_4.index t (1 : Fin 2) * 64 ≤ (i 1).val ∧ (i 1).val < win1_4.index t (1 : Fin 2) * 64 + 64
    rw [e41]; omega

/-- The node embedding of the reference program, entry by entry: its two spreads read `(r, 0)` of the column and
    `(0, q)` of the row, and its spread constant is zero everywhere. -/
private theorem embR_eq (a xwv : FVec Ideal S50000x64 .f32) (d2col : FVec Ideal S50000x1 .f32) (brow : FVec Ideal S1x64 .f32) :
    Cert.Stages.embR (F := Ideal) a xwv d2col brow = emb a xwv d2col brow := by
  funext i
  unfold Cert.Stages.embR emb
  show max (a i + broadcastInDim _ ![0, 1] Cert.ReferenceIdeal.Gen.bcast_S50000x1_S50000x64_0_1 d2col i * xwv i
      + broadcastInDim _ ![0, 1] Cert.ReferenceIdeal.Gen.bcast_S1x64_S50000x64_0_1 brow i)
      (broadcastInDim _ ![] Cert.ReferenceIdeal.Gen.bcast_S_S50000x64 (constant (F := Ideal) Cert.ReferenceIdeal.S_ .f32 0x00000000#32) i) = _
  have hc : broadcastInDim _ ![0, 1] Cert.ReferenceIdeal.Gen.bcast_S50000x1_S50000x64_0_1 d2col i = d2col (ValueIdx.ix2 (i 0) 0) := by
    refine broadcastInDim_apply _ _ d2col i _ fun a => ?_
    match a with
    | ⟨0, _⟩ => rfl
    | ⟨1, _⟩ => rfl
  have hr : broadcastInDim _ ![0, 1] Cert.ReferenceIdeal.Gen.bcast_S1x64_S50000x64_0_1 brow i = brow (ValueIdx.ix2 0 (i 1)) := by
    refine broadcastInDim_apply _ _ brow i _ fun a => ?_
    match a with
    | ⟨0, _⟩ => rfl
    | ⟨1, _⟩ => rfl
  rw [hc, hr]
  rfl

/-- The array the second launch leaves in its output window is the node embedding of what the launch finds in its four
    input arrays: the aggregate, the product, the column of squares, the bias row. -/
theorem array (c : Dev nD) :
    (dat1 (F := Ideal) V c).arrAt 4 cfg1.N
      = Cert.Stages.embR (F := Ideal) (V c main_v39) (V c main_v4) (V c main_v41) (V c main_v42) := by
  rw [embR_eq]
  exact (dat1 (F := Ideal) V c).arrAt_eq_of_cover 4 (emb (V c main_v39) (V c main_v4) (V c main_v41) (V c main_v42))
    (fun t _ => flushed_eq V c t) cover

end Cert.Region1

end
-- ==== Proof.Region2.lean ====
/-
  The third launch: 125 row blocks of 4800 edges; each point computes, for its block of edge features, the four gates
  (a product with the whole transposed weight matrix plus the bias row), one recurrent step from the zero state
  (the logistic function as one operation), and the last linear map. Row `r` of the result depends on row `r` of the edge
  features only, so the array the launch leaves is the same function of the whole arrays; the logistic function is
  `1 / (1 + exp (-x))` on the extended reals, which is how the stage functions spell it.
-/
import proofs.«172844_j25838523253465_1_alg».proof.Proof.Gen.KernelIdeal.Frame
import proofs.«172844_j25838523253465_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

section Entrywise

open Idealize.ShloMosaic.ValueIdx

/-- The f32 word 0x3F800000 is the real one. -/
private theorem one_f32 : Ideal.ofBits .f32 0x3F800000#32 = 1 := by
  simp [Ideal.ofBits, Ideal.ieee, -EReal.coe_mul]; norm_num

/-! ## One edge's computation, from its row of features

Row `r` of the result depends on row `r` of the edge features only (and on the four small arrays): the four gates
`x · wT + b`, the hidden entries `σ(o) · tanh (σ(i) · tanh g)` with `i`, `g`, `o` the gates' column ranges 0–63, 128–191
and 192–255, and the head `h · fT + fb`. -/

/-- Gate `j` of an edge with feature row `x`: `Σ_k x k · wT (k, j) + b (0, j)`. -/
private def gateRow (x : Fin 128 → EReal) (wT : Vec Ideal S128x256 .f32) (b : Vec Ideal S1x256 .f32) (j : Fin 256) : EReal :=
  (∑ k : Fin 128, x k * wT (ix2 k j)) + b (ix2 (0 : Fin 1) j)

/-- Hidden entry `k` of an edge with gate row `g`: `σ (g (192 + k)) · tanh (σ (g k) · tanh (g (128 + k)))`. -/
private def hidRow (g : Fin 256 → EReal) (k : Fin 64) : EReal :=
  Ideal.logistic (g ⟨192 + k.val, by omega⟩) * Ideal.tanh (Ideal.logistic (g ⟨0 + k.val, by omega⟩) * Ideal.tanh (g ⟨128 + k.val, by omega⟩))

/-- The head of an edge with hidden row `h`: `Σ_k h k · fT (k, 0) + fb (0, 0)`. -/
private def outRow (h : Fin 64 → EReal) (fT : Vec Ideal S64x1 .f32) (fb : Vec Ideal S1x1 .f32) : EReal :=
  (∑ k : Fin 64, h k * fT (ix2 k (0 : Fin 1))) + fb (ix2 (0 : Fin 1) (0 : Fin 1))

/-- The whole of it. -/
private def headRow (x : Fin 128 → EReal) (wT : Vec Ideal S128x256 .f32) (b : Vec Ideal S1x256 .f32) (fT : Vec Ideal S64x1 .f32) (fb : Vec Ideal S1x1 .f32) : EReal :=
  outRow (hidRow (gateRow x wT b)) fT fb

/-! ## The body's arithmetic on a block, entry by entry -/

private theorem lhs_kg_0 (i : S4800x256.Idx) (q : dot_S4800x128_S128x256_S4800x256_1_0_0_1_n_n.contr.Idx) :
    (dot_S4800x128_S128x256_S4800x256_1_0_0_1_n_n.lhsIdx i q 0).val = (i 0).val := by
  unfold DotDims.lhsIdx
  rw [dif_neg (show ¬(0 : Fin S4800x128.rank) ∈ dot_S4800x128_S128x256_S4800x256_1_0_0_1_n_n.lhsBatch by decide),
    dif_pos (show (0 : Fin S4800x128.rank) ∈ dot_S4800x128_S128x256_S4800x256_1_0_0_1_n_n.lhsNonContracting by decide)]
  rfl

private theorem lhs_kg_1 (i : S4800x256.Idx) (q : dot_S4800x128_S128x256_S4800x256_1_0_0_1_n_n.contr.Idx) :
    (dot_S4800x128_S128x256_S4800x256_1_0_0_1_n_n.lhsIdx i q 1).val = (q ⟨0, by decide⟩).val :=
  dot_S4800x128_S128x256_S4800x256_1_0_0_1_n_n.lhsIdx_val_of_single rfl i q

private theorem rhs_kg_0 (i : S4800x256.Idx) (q : dot_S4800x128_S128x256_S4800x256_1_0_0_1_n_n.contr.Idx) :
    (dot_S4800x128_S128x256_S4800x256_1_0_0_1_n_n.rhsIdx i q 0).val = (q ⟨0, by decide⟩).val :=
  dot_S4800x128_S128x256_S4800x256_1_0_0_1_n_n.rhsIdx_val_of_single rfl i q

private theorem rhs_kg_1 (i : S4800x256.Idx) (q : dot_S4800x128_S128x256_S4800x256_1_0_0_1_n_n.contr.Idx) :
    (dot_S4800x128_S128x256_S4800x256_1_0_0_1_n_n.rhsIdx i q 1).val = (i 1).val := by
  unfold DotDims.rhsIdx
  rw [dif_neg (show ¬(1 : Fin S128x256.rank) ∈ dot_S4800x128_S128x256_S4800x256_1_0_0_1_n_n.rhsBatch by decide),
    dif_pos (show (1 : Fin S128x256.rank) ∈ dot_S4800x128_S128x256_S4800x256_1_0_0_1_n_n.rhsNonContracting by decide)]
  rfl

/-- The two operand indices of this product at result entry `(p, j)` and contraction position `k`: `(p, k)` and `(k, j)`. -/
private theorem idx_kg (p : Fin 4800) (j : Fin 256) (k : Fin 128) :
    dot_S4800x128_S128x256_S4800x256_1_0_0_1_n_n.lhsIdx (ix2 p j) ((contrEquiv1 dot_S4800x128_S128x256_S4800x256_1_0_0_1_n_n 128 rfl rfl).symm k) = ix2 p k
    ∧ dot_S4800x128_S128x256_S4800x256_1_0_0_1_n_n.rhsIdx (ix2 p j) ((contrEquiv1 dot_S4800x128_S128x256_S4800x256_1_0_0_1_n_n 128 rfl rfl).symm k) = ix2 k j := by
  have hk := contrEquiv1_symm_val dot_S4800x128_S128x256_S4800x256_1_0_0_1_n_n 128 rfl rfl k
  exact ⟨funext fun a => Fin.ext (by
      match a with
      | ⟨0, _⟩ => exact lhs_kg_0 _ _
      | ⟨1, _⟩ => exact (lhs_kg_1 _ _).trans hk),
    funext fun a => Fin.ext (by
      match a with
      | ⟨0, _⟩ => exact (rhs_kg_0 _ _).trans hk
      | ⟨1, _⟩ => exact rhs_kg_1 _ _)⟩

private theorem lhs_kh_0 (i : S4800x1.Idx) (q : dot_S4800x64_S64x1_S4800x1_1_0_0_1_n_n.contr.Idx) :
    (dot_S4800x64_S64x1_S4800x1_1_0_0_1_n_n.lhsIdx i q 0).val = (i 0).val := by
  unfold DotDims.lhsIdx
  rw [dif_neg (show ¬(0 : Fin S4800x64.rank) ∈ dot_S4800x64_S64x1_S4800x1_1_0_0_1_n_n.lhsBatch by decide),
    dif_pos (show (0 : Fin S4800x64.rank) ∈ dot_S4800x64_S64x1_S4800x1_1_0_0_1_n_n.lhsNonContracting by decide)]
  rfl

private theorem lhs_kh_1 (i : S4800x1.Idx) (q : dot_S4800x64_S64x1_S4800x1_1_0_0_1_n_n.contr.Idx) :
    (dot_S4800x64_S64x1_S4800x1_1_0_0_1_n_n.lhsIdx i q 1).val = (q ⟨0, by decide⟩).val :=
  dot_S4800x64_S64x1_S4800x1_1_0_0_1_n_n.lhsIdx_val_of_single rfl i q

private theorem rhs_kh_0 (i : S4800x1.Idx) (q : dot_S4800x64_S64x1_S4800x1_1_0_0_1_n_n.contr.Idx) :
    (dot_S4800x64_S64x1_S4800x1_1_0_0_1_n_n.rhsIdx i q 0).val = (q ⟨0, by decide⟩).val :=
  dot_S4800x64_S64x1_S4800x1_1_0_0_1_n_n.rhsIdx_val_of_single rfl i q

private theorem rhs_kh_1 (i : S4800x1.Idx) (q : dot_S4800x64_S64x1_S4800x1_1_0_0_1_n_n.contr.Idx) :
    (dot_S4800x64_S64x1_S4800x1_1_0_0_1_n_n.rhsIdx i q 1).val = (i 1).val := by
  unfold DotDims.rhsIdx
  rw [dif_neg (show ¬(1 : Fin S64x1.rank) ∈ dot_S4800x64_S64x1_S4800x1_1_0_0_1_n_n.rhsBatch by decide),
    dif_pos (show (1 : Fin S64x1.rank) ∈ dot_S4800x64_S64x1_S4800x1_1_0_0_1_n_n.rhsNonContracting by decide)]
  rfl

/-- The two operand indices of this product at result entry `(p, j)` and contraction position `k`: `(p, k)` and `(k, j)`. -/
private theorem idx_kh (p : Fin 4800) (j : Fin 1) (k : Fin 64) :
    dot_S4800x64_S64x1_S4800x1_1_0_0_1_n_n.lhsIdx (ix2 p j) ((contrEquiv1 dot_S4800x64_S64x1_S4800x1_1_0_0_1_n_n 64 rfl rfl).symm k) = ix2 p k
    ∧ dot_S4800x64_S64x1_S4800x1_1_0_0_1_n_n.rhsIdx (ix2 p j) ((contrEquiv1 dot_S4800x64_S64x1_S4800x1_1_0_0_1_n_n 64 rfl rfl).symm k) = ix2 k j := by
  have hk := contrEquiv1_symm_val dot_S4800x64_S64x1_S4800x1_1_0_0_1_n_n 64 rfl rfl k
  exact ⟨funext fun a => Fin.ext (by
      match a with
      | ⟨0, _⟩ => exact lhs_kh_0 _ _
      | ⟨1, _⟩ => exact (lhs_kh_1 _ _).trans hk),
    funext fun a => Fin.ext (by
      match a with
      | ⟨0, _⟩ => exact (rhs_kh_0 _ _).trans hk
      | ⟨1, _⟩ => exact rhs_kh_1 _ _)⟩

/-- The block's product with the weights at an entry: the sum over the 128 features. -/
private theorem mm_kg_apply (a : FVec Ideal S4800x128 .bf16) (w : FVec Ideal S128x256 .bf16) (p : Fin 4800) (j : Fin 256) :
    matmul dot_S4800x128_S128x256_S4800x256_1_0_0_1_n_n none a w (constant S4800x256 .f32 0x00000000#32) (ix2 p j)
      = ∑ k : Fin 128, a (ix2 p k) * w (ix2 k j) := by
  simp only [matmul]
  rw [Ideal.matmul_constant_zero_apply, ← Equiv.sum_comp (contrEquiv1 dot_S4800x128_S128x256_S4800x256_1_0_0_1_n_n 128 rfl rfl).symm]
  refine Finset.sum_congr rfl fun k _ => ?_
  rw [(idx_kg p j k).1, (idx_kg p j k).2]

/-- The hidden block's product with the last weight column at an entry: the sum over the 64 hidden entries. -/
private theorem mm_kh_apply (a : FVec Ideal S4800x64 .bf16) (w : FVec Ideal S64x1 .bf16) (p : Fin 4800) (j : Fin 1) :
    matmul dot_S4800x64_S64x1_S4800x1_1_0_0_1_n_n none a w (constant S4800x1 .f32 0x00000000#32) (ix2 p j)
      = ∑ k : Fin 64, a (ix2 p k) * w (ix2 k j) := by
  simp only [matmul]
  rw [Ideal.matmul_constant_zero_apply, ← Equiv.sum_comp (contrEquiv1 dot_S4800x64_S64x1_S4800x1_1_0_0_1_n_n 64 rfl rfl).symm]
  refine Finset.sum_congr rfl fun k _ => ?_
  rw [(idx_kh p j k).1, (idx_kh p j k).2]

/-- The gates of a block: the product with the weights plus the bias row under every row. -/
private def gateB (x0 : Vec Ideal S4800x128 .f32) (x1 : Vec Ideal S128x256 .f32) (x2 : Vec Ideal S1x256 .f32) : FVec Ideal S4800x256 .f32 :=
  addf (matmul dot_S4800x128_S128x256_S4800x256_1_0_0_1_n_n none
      (truncf .bf16 (shapeCast S4800x128 x0 shapeCasts_S4800x128_S4800x128) bitsLt_bf16_f32)
      (truncf .bf16 (shapeCast S128x256 x1 shapeCasts_S128x256_S128x256) bitsLt_bf16_f32)
      (constant S4800x256 .f32 0x00000000#32))
    (broadcastTo S4800x256 (shapeCast S1x256 x2 shapeCasts_S1x256_S1x256) broadcasts_S1x256_S4800x256)

/-- The hidden entries of a block of gates. -/
private def hidB (g : FVec Ideal S4800x256 .f32) : FVec Ideal S4800x64 .f32 :=
  mulf (logistic (extractStridedSlice S4800x64 ![0, 192] g slices_S4800x256_o0_192_S4800x64))
    (tanh (mulf (logistic (extractStridedSlice S4800x64 ![0, 0] g slices_S4800x256_o0_0_S4800x64))
      (tanh (extractStridedSlice S4800x64 ![0, 128] g slices_S4800x256_o0_128_S4800x64))))

/-- The head of a block of hidden entries. -/
private def headB (h : FVec Ideal S4800x64 .f32) (x3 : Vec Ideal S64x1 .f32) (x4 : Vec Ideal S1x1 .f32) : FVec Ideal S4800x1 .f32 :=
  addf (matmul dot_S4800x64_S64x1_S4800x1_1_0_0_1_n_n none (truncf .bf16 h bitsLt_bf16_f32)
      (truncf .bf16 (shapeCast S64x1 x3 shapeCasts_S64x1_S64x1) bitsLt_bf16_f32) (constant S4800x1 .f32 0x00000000#32))
    (broadcastTo S4800x1 (shapeCast S1x1 x4 shapeCasts_S1x1_S1x1) broadcasts_S1x1_S4800x1)

/-- The body's payload is the head of the hidden entries of the gates. -/
private theorem pay_eq (x0 : Vec Ideal S4800x128 .f32) (x1 : Vec Ideal S128x256 .f32) (x2 : Vec Ideal S1x256 .f32)
    (x3 : Vec Ideal S64x1 .f32) (x4 : Vec Ideal S1x1 .f32) :
    k2_pay1 (F := Ideal) x0 x1 x2 x3 x4 = headB (hidB (gateB x0 x1 x2)) x3 x4 := rfl

private theorem gateB_apply (x0 : Vec Ideal S4800x128 .f32) (x1 : Vec Ideal S128x256 .f32) (x2 : Vec Ideal S1x256 .f32)
    (p : Fin 4800) (j : Fin 256) : gateB x0 x1 x2 (ix2 p j) = gateRow (fun k => x0 (ix2 p k)) x1 x2 j := by
  unfold gateB gateRow
  rw [addf_apply, mm_kg_apply, broadcastTo_1b_ab_apply, shapeCast_self, shapeCast_self, shapeCast_self]
  rfl

private theorem hidB_apply (g : FVec Ideal S4800x256 .f32) (p : Fin 4800) (k : Fin 64) :
    hidB g (ix2 p k) = hidRow (fun j => g (ix2 p j)) k := by
  unfold hidB hidRow
  show Ideal.logistic (extractStridedSlice S4800x64 ![0, 192] g slices_S4800x256_o0_192_S4800x64 (ix2 p k))
      * Ideal.tanh (Ideal.logistic (extractStridedSlice S4800x64 ![0, 0] g slices_S4800x256_o0_0_S4800x64 (ix2 p k))
        * Ideal.tanh (extractStridedSlice S4800x64 ![0, 128] g slices_S4800x256_o0_128_S4800x64 (ix2 p k))) = _
  rw [slice2_axis1_eq, slice2_axis1_eq, slice2_axis1_eq]

private theorem headB_apply (h : FVec Ideal S4800x64 .f32) (x3 : Vec Ideal S64x1 .f32) (x4 : Vec Ideal S1x1 .f32)
    (p : Fin 4800) (q : Fin 1) : headB h x3 x4 (ix2 p q) = outRow (fun k => h (ix2 p k)) x3 x4 := by
  obtain rfl : q = 0 := Subsingleton.elim _ _
  unfold headB outRow
  rw [addf_apply, mm_kh_apply, broadcastTo_1b_ab_apply, shapeCast_self, shapeCast_self]
  rfl

/-- THE PAYLOAD AT AN ENTRY: row `p` of the block the body stores is the computation of row `p` of the block of edge features. -/
private theorem pay_apply (x0 : Vec Ideal S4800x128 .f32) (x1 : Vec Ideal S128x256 .f32) (x2 : Vec Ideal S1x256 .f32)
    (x3 : Vec Ideal S64x1 .f32) (x4 : Vec Ideal S1x1 .f32) (p : Fin 4800) (q : Fin 1) :
    k2_pay1 (F := Ideal) x0 x1 x2 x3 x4 (ix2 p q) = headRow (fun k => x0 (ix2 p k)) x1 x2 x3 x4 := by
  rw [pay_eq, headB_apply]
  unfold headRow
  congr 1
  funext k
  rw [hidB_apply]
  congr 1
  funext j
  rw [gateB_apply]

/-! ## The stage functions on the whole arrays, entry by entry -/

private theorem lhs_rg_0 (i : Cert.ReferenceIdeal.S600000x256.Idx) (q : Cert.ReferenceIdeal.dot_S600000x128_S128x256_S600000x256_1_0_0_1_n_n.contr.Idx) :
    (Cert.ReferenceIdeal.dot_S600000x128_S128x256_S600000x256_1_0_0_1_n_n.lhsIdx i q 0).val = (i 0).val := by
  unfold DotDims.lhsIdx
  rw [dif_neg (show ¬(0 : Fin Cert.ReferenceIdeal.S600000x128.rank) ∈ Cert.ReferenceIdeal.dot_S600000x128_S128x256_S600000x256_1_0_0_1_n_n.lhsBatch by decide),
    dif_pos (show (0 : Fin Cert.ReferenceIdeal.S600000x128.rank) ∈ Cert.ReferenceIdeal.dot_S600000x128_S128x256_S600000x256_1_0_0_1_n_n.lhsNonContracting by decide)]
  rfl

private theorem lhs_rg_1 (i : Cert.ReferenceIdeal.S600000x256.Idx) (q : Cert.ReferenceIdeal.dot_S600000x128_S128x256_S600000x256_1_0_0_1_n_n.contr.Idx) :
    (Cert.ReferenceIdeal.dot_S600000x128_S128x256_S600000x256_1_0_0_1_n_n.lhsIdx i q 1).val = (q ⟨0, by decide⟩).val :=
  Cert.ReferenceIdeal.dot_S600000x128_S128x256_S600000x256_1_0_0_1_n_n.lhsIdx_val_of_single rfl i q

private theorem rhs_rg_0 (i : Cert.ReferenceIdeal.S600000x256.Idx) (q : Cert.ReferenceIdeal.dot_S600000x128_S128x256_S600000x256_1_0_0_1_n_n.contr.Idx) :
    (Cert.ReferenceIdeal.dot_S600000x128_S128x256_S600000x256_1_0_0_1_n_n.rhsIdx i q 0).val = (q ⟨0, by decide⟩).val :=
  Cert.ReferenceIdeal.dot_S600000x128_S128x256_S600000x256_1_0_0_1_n_n.rhsIdx_val_of_single rfl i q

private theorem rhs_rg_1 (i : Cert.ReferenceIdeal.S600000x256.Idx) (q : Cert.ReferenceIdeal.dot_S600000x128_S128x256_S600000x256_1_0_0_1_n_n.contr.Idx) :
    (Cert.ReferenceIdeal.dot_S600000x128_S128x256_S600000x256_1_0_0_1_n_n.rhsIdx i q 1).val = (i 1).val := by
  unfold DotDims.rhsIdx
  rw [dif_neg (show ¬(1 : Fin Cert.ReferenceIdeal.S128x256.rank) ∈ Cert.ReferenceIdeal.dot_S600000x128_S128x256_S600000x256_1_0_0_1_n_n.rhsBatch by decide),
    dif_pos (show (1 : Fin Cert.ReferenceIdeal.S128x256.rank) ∈ Cert.ReferenceIdeal.dot_S600000x128_S128x256_S600000x256_1_0_0_1_n_n.rhsNonContracting by decide)]
  rfl

/-- The two operand indices of this product at result entry `(p, j)` and contraction position `k`: `(p, k)` and `(k, j)`. -/
private theorem idx_rg (p : Fin 600000) (j : Fin 256) (k : Fin 128) :
    Cert.ReferenceIdeal.dot_S600000x128_S128x256_S600000x256_1_0_0_1_n_n.lhsIdx (ix2 p j) ((contrEquiv1 Cert.ReferenceIdeal.dot_S600000x128_S128x256_S600000x256_1_0_0_1_n_n 128 rfl rfl).symm k) = ix2 p k
    ∧ Cert.ReferenceIdeal.dot_S600000x128_S128x256_S600000x256_1_0_0_1_n_n.rhsIdx (ix2 p j) ((contrEquiv1 Cert.ReferenceIdeal.dot_S600000x128_S128x256_S600000x256_1_0_0_1_n_n 128 rfl rfl).symm k) = ix2 k j := by
  have hk := contrEquiv1_symm_val Cert.ReferenceIdeal.dot_S600000x128_S128x256_S600000x256_1_0_0_1_n_n 128 rfl rfl k
  exact ⟨funext fun a => Fin.ext (by
      match a with
      | ⟨0, _⟩ => exact lhs_rg_0 _ _
      | ⟨1, _⟩ => exact (lhs_rg_1 _ _).trans hk),
    funext fun a => Fin.ext (by
      match a with
      | ⟨0, _⟩ => exact (rhs_rg_0 _ _).trans hk
      | ⟨1, _⟩ => exact rhs_rg_1 _ _)⟩

private theorem lhs_rh_0 (i : Cert.ReferenceIdeal.S600000x1.Idx) (q : Cert.ReferenceIdeal.dot_S600000x64_S64x1_S600000x1_1_0_0_1_n_n.contr.Idx) :
    (Cert.ReferenceIdeal.dot_S600000x64_S64x1_S600000x1_1_0_0_1_n_n.lhsIdx i q 0).val = (i 0).val := by
  unfold DotDims.lhsIdx
  rw [dif_neg (show ¬(0 : Fin Cert.ReferenceIdeal.S600000x64.rank) ∈ Cert.ReferenceIdeal.dot_S600000x64_S64x1_S600000x1_1_0_0_1_n_n.lhsBatch by decide),
    dif_pos (show (0 : Fin Cert.ReferenceIdeal.S600000x64.rank) ∈ Cert.ReferenceIdeal.dot_S600000x64_S64x1_S600000x1_1_0_0_1_n_n.lhsNonContracting by decide)]
  rfl

private theorem lhs_rh_1 (i : Cert.ReferenceIdeal.S600000x1.Idx) (q : Cert.ReferenceIdeal.dot_S600000x64_S64x1_S600000x1_1_0_0_1_n_n.contr.Idx) :
    (Cert.ReferenceIdeal.dot_S600000x64_S64x1_S600000x1_1_0_0_1_n_n.lhsIdx i q 1).val = (q ⟨0, by decide⟩).val :=
  Cert.ReferenceIdeal.dot_S600000x64_S64x1_S600000x1_1_0_0_1_n_n.lhsIdx_val_of_single rfl i q

private theorem rhs_rh_0 (i : Cert.ReferenceIdeal.S600000x1.Idx) (q : Cert.ReferenceIdeal.dot_S600000x64_S64x1_S600000x1_1_0_0_1_n_n.contr.Idx) :
    (Cert.ReferenceIdeal.dot_S600000x64_S64x1_S600000x1_1_0_0_1_n_n.rhsIdx i q 0).val = (q ⟨0, by decide⟩).val :=
  Cert.ReferenceIdeal.dot_S600000x64_S64x1_S600000x1_1_0_0_1_n_n.rhsIdx_val_of_single rfl i q

private theorem rhs_rh_1 (i : Cert.ReferenceIdeal.S600000x1.Idx) (q : Cert.ReferenceIdeal.dot_S600000x64_S64x1_S600000x1_1_0_0_1_n_n.contr.Idx) :
    (Cert.ReferenceIdeal.dot_S600000x64_S64x1_S600000x1_1_0_0_1_n_n.rhsIdx i q 1).val = (i 1).val := by
  unfold DotDims.rhsIdx
  rw [dif_neg (show ¬(1 : Fin Cert.ReferenceIdeal.S64x1.rank) ∈ Cert.ReferenceIdeal.dot_S600000x64_S64x1_S600000x1_1_0_0_1_n_n.rhsBatch by decide),
    dif_pos (show (1 : Fin Cert.ReferenceIdeal.S64x1.rank) ∈ Cert.ReferenceIdeal.dot_S600000x64_S64x1_S600000x1_1_0_0_1_n_n.rhsNonContracting by decide)]
  rfl

/-- The two operand indices of this product at result entry `(p, j)` and contraction position `k`: `(p, k)` and `(k, j)`. -/
private theorem idx_rh (p : Fin 600000) (j : Fin 1) (k : Fin 64) :
    Cert.ReferenceIdeal.dot_S600000x64_S64x1_S600000x1_1_0_0_1_n_n.lhsIdx (ix2 p j) ((contrEquiv1 Cert.ReferenceIdeal.dot_S600000x64_S64x1_S600000x1_1_0_0_1_n_n 64 rfl rfl).symm k) = ix2 p k
    ∧ Cert.ReferenceIdeal.dot_S600000x64_S64x1_S600000x1_1_0_0_1_n_n.rhsIdx (ix2 p j) ((contrEquiv1 Cert.ReferenceIdeal.dot_S600000x64_S64x1_S600000x1_1_0_0_1_n_n 64 rfl rfl).symm k) = ix2 k j := by
  have hk := contrEquiv1_symm_val Cert.ReferenceIdeal.dot_S600000x64_S64x1_S600000x1_1_0_0_1_n_n 64 rfl rfl k
  exact ⟨funext fun a => Fin.ext (by
      match a with
      | ⟨0, _⟩ => exact lhs_rh_0 _ _
      | ⟨1, _⟩ => exact (lhs_rh_1 _ _).trans hk),
    funext fun a => Fin.ext (by
      match a with
      | ⟨0, _⟩ => exact (rhs_rh_0 _ _).trans hk
      | ⟨1, _⟩ => exact rhs_rh_1 _ _)⟩

/-- The host's product of the edge features with the weights at an entry: the sum over the 128 features. -/
private theorem dot_rg_apply (a : FVec Ideal Cert.ReferenceIdeal.S600000x128 .f32) (w : FVec Ideal Cert.ReferenceIdeal.S128x256 .f32) (r : Fin 600000) (j : Fin 256) :
    Host.dotGeneral (F := Ideal) Cert.ReferenceIdeal.dot_S600000x128_S128x256_S600000x256_1_0_0_1_n_n none a w (ix2 r j) = ∑ k : Fin 128, a (ix2 r k) * w (ix2 k j) := by
  simp only [Host.dotGeneral]
  rw [Ideal.dotGeneral_apply, ← Equiv.sum_comp (contrEquiv1 Cert.ReferenceIdeal.dot_S600000x128_S128x256_S600000x256_1_0_0_1_n_n 128 rfl rfl).symm]
  refine Finset.sum_congr rfl fun k _ => ?_
  rw [(idx_rg r j k).1, (idx_rg r j k).2]

/-- The host's product of the hidden entries with the last weight column at an entry: the sum over the 64 hidden entries. -/
private theorem dot_rh_apply (a : FVec Ideal Cert.ReferenceIdeal.S600000x64 .f32) (w : FVec Ideal Cert.ReferenceIdeal.S64x1 .f32) (r : Fin 600000) (j : Fin 1) :
    Host.dotGeneral (F := Ideal) Cert.ReferenceIdeal.dot_S600000x64_S64x1_S600000x1_1_0_0_1_n_n none a w (ix2 r j) = ∑ k : Fin 64, a (ix2 r k) * w (ix2 k j) := by
  simp only [Host.dotGeneral]
  rw [Ideal.dotGeneral_apply, ← Equiv.sum_comp (contrEquiv1 Cert.ReferenceIdeal.dot_S600000x64_S64x1_S600000x1_1_0_0_1_n_n 64 rfl rfl).symm]
  refine Finset.sum_congr rfl fun k _ => ?_
  rw [(idx_rh r j k).1, (idx_rh r j k).2]

/-- A `[1, b]` array spread down the rows of `[a, b]` (both axes kept in place) reads, at `(p, c)`, its one row at `c`. -/
private theorem bcastRows_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The stage functions' `1 / (1 + exp (-x))` is the logistic function, entry by entry. -/
private theorem sig_apply (x : FVec Ideal Cert.ReferenceIdeal.S600000x64 .f32) (i : Cert.ReferenceIdeal.S600000x64.Idx) :
    Cert.Stages.sig (F := Ideal) x i = Ideal.logistic (x i) := by
  show Ideal.div (Ideal.ofBits .f32 0x3F800000#32) (Ideal.ofBits .f32 0x3F800000#32 + Ideal.exp (-(x i))) = _
  rw [one_f32]
  rfl

private theorem gates_apply (efv : FVec Ideal Cert.ReferenceIdeal.S600000x128 .f32) (wT : FVec Ideal Cert.ReferenceIdeal.S128x256 .f32) (b : FVec Ideal Cert.ReferenceIdeal.S1x256 .f32)
    (r : Fin 600000) (j : Fin 256) :
    Cert.Stages.gates (F := Ideal) efv wT b (ix2 r j) = gateRow (fun k => efv (ix2 r k)) wT b j := by
  unfold Cert.Stages.gates gateRow
  rw [addf_apply, dot_rg_apply, bcastRows_apply]

private theorem hid_apply (g : FVec Ideal Cert.ReferenceIdeal.S600000x256 .f32) (r : Fin 600000) (k : Fin 64) :
    Cert.Stages.hid (F := Ideal) g (ix2 r k) = hidRow (fun j => g (ix2 r j)) k := by
  unfold Cert.Stages.hid hidRow
  show Cert.Stages.sig (F := Ideal) (extractStridedSlice Cert.ReferenceIdeal.S600000x64 ![0, 192] g Cert.ReferenceIdeal.Gen.slices_S600000x256_S600000x64_0_192) (ix2 r k)
      * Ideal.tanh (Cert.Stages.sig (F := Ideal) (extractStridedSlice Cert.ReferenceIdeal.S600000x64 ![0, 0] g Cert.ReferenceIdeal.Gen.slices_S600000x256_S600000x64_0_0) (ix2 r k)
        * Ideal.tanh (extractStridedSlice Cert.ReferenceIdeal.S600000x64 ![0, 128] g Cert.ReferenceIdeal.Gen.slices_S600000x256_S600000x64_0_128 (ix2 r k))) = _
  rw [sig_apply, sig_apply, slice2_axis1_eq, slice2_axis1_eq, slice2_axis1_eq]

/-- THE ARRAY the launch leaves, as one function of the five arrays it reads: row `r` is the computation of row `r` of the
    edge features. -/
private def G (efv : Vec Ideal S600000x128 .f32) (wT : Vec Ideal S128x256 .f32) (b : Vec Ideal S1x256 .f32)
    (fT : Vec Ideal S64x1 .f32) (fb : Vec Ideal S1x1 .f32) : Vec Ideal S600000x1 .f32 :=
  fun i => headRow (fun k => efv (ix2 (i 0 : Fin 600000) k)) wT b fT fb

/-- The stage functions' head IS that function. -/
private theorem headR_eq (efv : Vec Ideal S600000x128 .f32) (wT : Vec Ideal S128x256 .f32) (b : Vec Ideal S1x256 .f32)
    (fT : Vec Ideal S64x1 .f32) (fb : Vec Ideal S1x1 .f32) :
    Cert.Stages.headR (F := Ideal) efv wT b fT fb = G efv wT b fT fb := by
  funext i
  obtain ⟨r, q, rfl⟩ : ∃ (r : Fin 600000) (q : Fin 1), i = ix2 r q := ⟨i 0, i 1, eq_ix2 i⟩
  obtain rfl : q = 0 := Subsingleton.elim _ _
  unfold Cert.Stages.headR G headRow outRow
  rw [addf_apply, dot_rh_apply, bcastRows_apply]
  congr 2
  funext k
  rw [hid_apply]
  congr 2
  funext j
  rw [gates_apply]

/-! ## From the blocks to the array -/

private theorem hz : (![0, 0] : Fin 2 → Nat) = fun _ => 0 := funext fun a => by fin_cases a <;> rfl

/-- The windows' index maps over the grid's 125 points: the edge features' block and the result's block sit at the point's
    number on axis 0 and at 0 on axis 1; the four small arrays' one block sits at 0 on both axes. -/
private theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of `G` of the five arrays as the launch finds them. -/
private theorem flushed_eq (c : Dev nD) (t : Fin cfg2.N) :
    (dat2 (F := Ideal) V c).flushed 5 t
      = ((cfg2.win 5).blk t).view.read (Elt Ideal) (G (V c main_v58) (V c main_v60) (V c main_v62) (V c main_v61) (V c main_v63)) := by
  show (cfg2.win 5).cut (grid2.coords t) ((dat2 V c).after 5 t) = _
  rw [after2_5]
  unfold out2_5
  rw [View.canon_unit_zero hz]
  simp only [View.ld_unit_zero (S := S4800x128) hz, View.ld_unit_zero (S := S128x256) hz, View.ld_unit_zero (S := S1x256) hz,
    View.ld_unit_zero (S := S64x1) hz, View.ld_unit_zero (S := S1x1) hz]
  obtain ⟨e00, e01, e10, e11, e20, e21, e30, e31, e40, e41, e50, e51⟩ := idx_facts t
  funext j
  obtain ⟨p, q, rfl⟩ : ∃ (p : Fin 4800) (q : Fin 1), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = headRow (fun k => V c main_v58 (ix2 ((((cfg2.win 5).blk t).view.emb (ix2 p q)) 0 : Fin 600000) k)) (V c main_v60) (V c main_v62) (V c main_v61) (V c main_v63)
  rw [pay_apply]
  have h0 : (fun k : Fin 128 => iblk2 V c 0 t (ix2 p k))
      = fun k => V c main_v58 (ix2 ((((cfg2.win 5).blk t).view.emb (ix2 p q)) 0 : Fin 600000) k) := by
    funext k
    show V c main_v58 (((cfg2.win 0).blk t).view.emb (ix2 p k)) = _
    refine congrArg (V c main_v58) (funext fun a => Fin.ext ?_)
    match a with
    | ⟨0, _⟩ => show win2_0.index t (0 : Fin 2) * 4800 + 1 * p.val = win2_5.index t (0 : Fin 2) * 4800 + 1 * p.val; omega
    | ⟨1, _⟩ => show win2_0.index t (1 : Fin 2) * 128 + 1 * k.val = k.val; omega
  have h1 : iblk2 V c 1 t = V c main_v60 := by
    funext y
    show V c main_v60 (((cfg2.win 1).blk t).view.emb y) = V c main_v60 y
    refine congrArg (V c main_v60) (funext fun a => Fin.ext ?_)
    match a with
    | ⟨0, _⟩ => show win2_1.index t (0 : Fin 2) * 128 + 1 * (y 0).val = (y 0).val; omega
    | ⟨1, _⟩ => show win2_1.index t (1 : Fin 2) * 256 + 1 * (y 1).val = (y 1).val; omega
  have h2 : iblk2 V c 2 t = V c main_v62 := by
    funext y
    show V c main_v62 (((cfg2.win 2).blk t).view.emb y) = V c main_v62 y
    refine congrArg (V c main_v62) (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  have h3 : iblk2 V c 3 t = V c main_v61 := by
    funext y
    show V c main_v61 (((cfg2.win 3).blk t).view.emb y) = V c main_v61 y
    refine congrArg (V c main_v61) (funext fun a => Fin.ext ?_)
    match a with
    | ⟨0, _⟩ => show win2_3.index t (0 : Fin 2) * 64 + 1 * (y 0).val = (y 0).val; omega
    | ⟨1, _⟩ => show win2_3.index t (1 : Fin 2) * 1 + 1 * (y 1).val = (y 1).val; omega
  have h4 : iblk2 V c 4 t = V c main_v63 := by
    funext y
    show V c main_v63 (((cfg2.win 4).blk t).view.emb y) = V c main_v63 y
    refine congrArg (V c main_v63) (funext fun a => Fin.ext ?_)
    match a with
    | ⟨0, _⟩ => show win2_4.index t (0 : Fin 2) * 1 + 1 * (y 0).val = (y 0).val; omega
    | ⟨1, _⟩ => show win2_4.index t (1 : Fin 2) * 1 + 1 * (y 1).val = (y 1).val; omega
  rw [h0, h1, h2, h3, h4]

/-- A row of the result is in point `t`'s block iff each coordinate is in the block's range on its axis. -/
private theorem mem_blk (t : Fin cfg2.N) (i : S600000x1.Idx) :
    i ∈ ((cfg2.win 5).blk t).view.set ↔ ∀ a : Fin 2, win2_5.index t a * S4800x1.size a ≤ (i a).val ∧ (i a).val < win2_5.index t a * S4800x1.size a + S4800x1.size a := by
  show i ∈ ((View.whole main_v64).slice (win2_5.rect t)).set ↔ _
  rw [View.set_slice_whole, Rect.mem_set_unit]
  exact Iff.rfl

/-- THE COVER: row `r` of the result is in the block of point `r / 4800`, and the grid has `600000 / 4800 = 125` points. -/
private theorem covered (i : S600000x1.Idx) :
    ∃ t : Fin cfg2.N, (cfg2.win 5).flush t = true ∧ i ∈ ((cfg2.win 5).blk t).view.set := by
  have hi0 : (i 0).val < 600000 := (i 0).isLt
  have hi1 : (i 1).val < 1 := (i 1).isLt
  have hN : (i 0).val / 4800 < cfg2.N := by
    show (i 0).val / 4800 < grid2.N
    rw [N_2]; omega
  obtain ⟨e00, e01, e10, e11, e20, e21, e30, e31, e40, e41, e50, e51⟩ := idx_facts ⟨(i 0).val / 4800, hN⟩
  refine ⟨⟨(i 0).val / 4800, hN⟩, flush2_5 _, ?_⟩
  rw [mem_blk]
  intro a
  match a with
  | ⟨0, _⟩ =>
    show win2_5.index ⟨(i 0).val / 4800, hN⟩ (0 : Fin 2) * 4800 ≤ (i 0).val ∧ (i 0).val < win2_5.index ⟨(i 0).val / 4800, hN⟩ (0 : Fin 2) * 4800 + 4800
    have e : win2_5.index ⟨(i 0).val / 4800, hN⟩ (0 : Fin 2) = (i 0).val / 4800 := e50
    omega
  | ⟨1, _⟩ =>
    show win2_5.index ⟨(i 0).val / 4800, hN⟩ (1 : Fin 2) * 1 ≤ (i 1).val ∧ (i 1).val < win2_5.index ⟨(i 0).val / 4800, hN⟩ (1 : Fin 2) * 1 + 1
    omega

end Entrywise

/-- The array the third launch leaves in its output window is the head of what the launch finds in its five input
    arrays: the edge features, the transposed input weights, the bias row, the last weight column, the last bias. -/
theorem array (c : Dev nD) :
    (dat2 (F := Ideal) V c).arrAt 5 cfg2.N
      = Cert.Stages.headR (F := Ideal) (V c main_v58) (V c main_v60) (V c main_v62) (V c main_v61) (V c main_v63) := by
  rw [headR_eq]
  exact (dat2 V c).arrAt_eq_of_cover 5 (G (V c main_v58) (V c main_v60) (V c main_v62) (V c main_v61) (V c main_v63))
    (fun t _ => flushed_eq V c t) covered

end Cert.Region2

end
-- ==== Proof.Keepdims.lean ====
/-
  Four facts about arrays with an axis of length one. Reshaping a vector of length `n` to a column `[n, 1]` puts entry
  `p` at `(p, 0)`, and so does spreading it along a new trailing axis of length one; reshaping it to a row `[1, n]` puts
  entry `q` at `(0, q)`, and so does spreading it along a new leading axis of length one. The kernel's host code
  reshapes where the reference's spreads; entry by entry they are the same array.
-/
import proofs.«172844_j25838523253465_1_alg».proof.KernelIdeal
import proofs.«172844_j25838523253465_1_alg».proof.ReferenceIdeal
import Idealize.ShloMosaic.Lib.Pipeline.Value
import Idealize.ShloMosaic.Lib.ValueIdx
import Idealize.ShloMosaic.Lib.ValueLayout

noncomputable section

namespace Cert.Keepdims

open Idealize.ShloMosaic

variable {α : Type}

/-- A vector of length 50000 as a column: reshaped, or spread along a trailing axis of length one. -/
theorem col_50000 (x : Cert.KernelIdeal.S50000.Idx → α) (h : Cert.KernelIdeal.S50000.ShapeCasts Cert.KernelIdeal.S50000x1)
    (h' : Cert.ReferenceIdeal.S50000.BroadcastsInDim Cert.ReferenceIdeal.S50000x1 ![0]) :
    shapeCast Cert.KernelIdeal.S50000x1 x h = broadcastInDim Cert.ReferenceIdeal.S50000x1 ![0] h' x := by
  funext j
  -- the trailing axis has length one, so its coordinate is 0
  have hu : (j 1).val < 1 := ValueIdx.idx2_lt1 j
  -- the reshape keeps the row-major position: (p, 0) in [50000, 1] sits at p * 1 + 0 = p
  have e1 := shapeCast_apply x h j (ValueIdx.ix1 (j 0 : Fin 50000)) (by
    rw [Shape.rowMajor_val_two, Shape.rowMajor_val_one]
    show (j 0).val = (j 0).val * 1 + (j 1).val
    omega)
  -- the spread reads the source at the result's coordinate on axis 0: the source's axis is longer than one
  have e2 := broadcastInDim_apply ![0] h' x j (ValueIdx.ix1 (j 0 : Fin 50000)) (by
    intro a
    match a with
    | ⟨0, _⟩ => rfl)
  exact e1.trans e2.symm

/-- A vector of length 64 as a row: reshaped, or spread along a leading axis of length one. -/
theorem row_64 (x : Cert.KernelIdeal.S64.Idx → α) (h : Cert.KernelIdeal.S64.ShapeCasts Cert.KernelIdeal.S1x64)
    (h' : Cert.ReferenceIdeal.S64.BroadcastsInDim Cert.ReferenceIdeal.S1x64 ![1]) :
    shapeCast Cert.KernelIdeal.S1x64 x h = broadcastInDim Cert.ReferenceIdeal.S1x64 ![1] h' x := by
  funext j
  -- the leading axis has length one, so its coordinate is 0
  have hu : (j 0).val < 1 := ValueIdx.idx2_lt0 j
  -- the reshape keeps the row-major position: (0, q) in [1, 64] sits at 0 * 64 + q = q
  have e1 := shapeCast_apply x h j (ValueIdx.ix1 (j 1 : Fin 64)) (by
    rw [Shape.rowMajor_val_two, Shape.rowMajor_val_one]
    show (j 1).val = (j 0).val * 64 + (j 1).val
    omega)
  -- the spread reads the source at the result's coordinate on axis 1: the source's axis is longer than one
  have e2 := broadcastInDim_apply ![1] h' x j (ValueIdx.ix1 (j 1 : Fin 64)) (by
    intro a
    match a with
    | ⟨0, _⟩ => rfl)
  exact e1.trans e2.symm

/-- A vector of length 256 as a row: reshaped, or spread along a leading axis of length one. -/
theorem row_256 (x : Cert.KernelIdeal.S256.Idx → α) (h : Cert.KernelIdeal.S256.ShapeCasts Cert.KernelIdeal.S1x256)
    (h' : Cert.ReferenceIdeal.S256.BroadcastsInDim Cert.ReferenceIdeal.S1x256 ![1]) :
    shapeCast Cert.KernelIdeal.S1x256 x h = broadcastInDim Cert.ReferenceIdeal.S1x256 ![1] h' x := by
  funext j
  -- the leading axis has length one, so its coordinate is 0
  have hu : (j 0).val < 1 := ValueIdx.idx2_lt0 j
  -- the reshape keeps the row-major position: (0, q) in [1, 256] sits at 0 * 256 + q = q
  have e1 := shapeCast_apply x h j (ValueIdx.ix1 (j 1 : Fin 256)) (by
    rw [Shape.rowMajor_val_two, Shape.rowMajor_val_one]
    show (j 1).val = (j 0).val * 256 + (j 1).val
    omega)
  -- the spread reads the source at the result's coordinate on axis 1: the source's axis is longer than one
  have e2 := broadcastInDim_apply ![1] h' x j (ValueIdx.ix1 (j 1 : Fin 256)) (by
    intro a
    match a with
    | ⟨0, _⟩ => rfl)
  exact e1.trans e2.symm

/-- A vector of length 1 as a 1 × 1 array: reshaped, or spread along a leading axis of length one. -/
theorem row_1 (x : Cert.KernelIdeal.S1.Idx → α) (h : Cert.KernelIdeal.S1.ShapeCasts Cert.KernelIdeal.S1x1)
    (h' : Cert.ReferenceIdeal.S1.BroadcastsInDim Cert.ReferenceIdeal.S1x1 ![1]) :
    shapeCast Cert.KernelIdeal.S1x1 x h = broadcastInDim Cert.ReferenceIdeal.S1x1 ![1] h' x := by
  funext j
  -- both axes have length one, so both coordinates are 0
  have h0 : (j 0).val < 1 := ValueIdx.idx2_lt0 j
  have h1 : (j 1).val < 1 := ValueIdx.idx2_lt1 j
  -- the reshape keeps the row-major position: (0, 0) in [1, 1] sits at 0 * 1 + 0 = 0
  have e1 := shapeCast_apply x h j (ValueIdx.ix1 (0 : Fin 1)) (by
    rw [Shape.rowMajor_val_two, Shape.rowMajor_val_one]
    show 0 = (j 0).val * 1 + (j 1).val
    omega)
  -- the source's one axis has length one, so the spread reads coordinate 0 whatever the result index
  have e2 := broadcastInDim_apply ![1] h' x j (ValueIdx.ix1 (0 : Fin 1)) (by
    intro a
    match a with
    | ⟨0, _⟩ => rfl)
  exact e1.trans e2.symm

end Cert.Keepdims

end
-- ==== Proof.Fold.lean ====
/-
  What the kernel's buffers hold at each boundary of its run, as functions of the arguments. The run is six segments:
  host operations, the first launch, host operations, the second launch, host operations, the third launch. The host
  stretches are the reference's own operations on the same buffers, so each buffer they write is a stage function of
  what the stretch finds; a launch leaves its output array at the region's array function (the three region modules)
  and every other buffer as it found it. Followed from the launch memory to the end, the result buffer holds the stages
  composed, of the arguments. The kernel reshapes a vector to a column or a row where the stages spread it along an
  axis of length one: the same arrays (the four facts about such axes).
-/
import proofs.«172844_j25838523253465_1_alg».proof.Proof.Gen.KernelIdeal.Frame
import proofs.«172844_j25838523253465_1_alg».proof.Proof.Stages
import proofs.«172844_j25838523253465_1_alg».proof.Proof.Region0
import proofs.«172844_j25838523253465_1_alg».proof.Proof.Region1
import proofs.«172844_j25838523253465_1_alg».proof.Proof.Region2
import proofs.«172844_j25838523253465_1_alg».proof.Proof.Keepdims
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch: the edge list's two rows; the arguments untouched -/

theorem b1_v1 (c : Dev nD) : W1 m ρ c (Proc.devRef .tc main_v1) = Cert.Stages.rowIx (m ((c : Thread nD τ).loc main_arg1)) := by
  show StableHlo.after hostOps0 (W0 m ρ c) (Proc.devRef .tc main_v1) = _
  dsimp only [hostOps0]
  after_results_simp <;> rfl

theorem b1_v3 (c : Dev nD) : W1 m ρ c (Proc.devRef .tc main_v3) = Cert.Stages.colIx (m ((c : Thread nD τ).loc main_arg1)) := by
  show StableHlo.after hostOps0 (W0 m ρ c) (Proc.devRef .tc main_v3) = _
  dsimp only [hostOps0]
  after_results_simp <;> rfl

theorem b1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl

theorem b1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl

theorem b1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results_simp <;> rfl

theorem b1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl

theorem b1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl

theorem b1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl

theorem b1_arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl

theorem b1_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl

/-! ## After the first launch: the product of the features and the weights; every other buffer as before -/

theorem b2_v4 (c : Dev nD) : W2 m ρ c (Proc.devRef .tc main_v4) = Cert.Stages.xw (m ((c : Thread nD τ).loc main_arg0)) (m ((c : Thread nD τ).loc main_arg2)) := by
  refine (W2_arr m ρ c 2).trans ((Cert.Region0.array (V1 m ρ) c).trans ?_)
  rw [show V1 m ρ c main_arg0 = (m ((c : Thread nD τ).loc main_arg0)) from b1_arg0 m ρ c, show V1 m ρ c main_arg2 = (m ((c : Thread nD τ).loc main_arg2)) from b1_arg2 m ρ c]

theorem b2_v1 (c : Dev nD) : W2 m ρ c (Proc.devRef .tc main_v1) = Cert.Stages.rowIx (m ((c : Thread nD τ).loc main_arg1)) :=
  (W2_of_ne m ρ c main_v1 (by decide)).trans (b1_v1 m ρ c)

theorem b2_v3 (c : Dev nD) : W2 m ρ c (Proc.devRef .tc main_v3) = Cert.Stages.colIx (m ((c : Thread nD τ).loc main_arg1)) :=
  (W2_of_ne m ρ c main_v3 (by decide)).trans (b1_v3 m ρ c)

theorem b2_arg3 (c : Dev nD) : W2 m ρ c (Proc.devRef .tc main_arg3) = (m ((c : Thread nD τ).loc main_arg3)) :=
  (W2_of_ne m ρ c main_arg3 (by decide)).trans (b1_arg3 m ρ c)

theorem b2_arg4 (c : Dev nD) : W2 m ρ c (Proc.devRef .tc main_arg4) = (m ((c : Thread nD τ).loc main_arg4)) :=
  (W2_of_ne m ρ c main_arg4 (by decide)).trans (b1_arg4 m ρ c)

theorem b2_arg6 (c : Dev nD) : W2 m ρ c (Proc.devRef .tc main_arg6) = (m ((c : Thread nD τ).loc main_arg6)) :=
  (W2_of_ne m ρ c main_arg6 (by decide)).trans (b1_arg6 m ρ c)

theorem b2_arg7 (c : Dev nD) : W2 m ρ c (Proc.devRef .tc main_arg7) = (m ((c : Thread nD τ).loc main_arg7)) :=
  (W2_of_ne m ρ c main_arg7 (by decide)).trans (b1_arg7 m ρ c)

theorem b2_arg8 (c : Dev nD) : W2 m ρ c (Proc.devRef .tc main_arg8) = (m ((c : Thread nD τ).loc main_arg8)) :=
  (W2_of_ne m ρ c main_arg8 (by decide)).trans (b1_arg8 m ρ c)

theorem b2_arg9 (c : Dev nD) : W2 m ρ c (Proc.devRef .tc main_arg9) = (m ((c : Thread nD τ).loc main_arg9)) :=
  (W2_of_ne m ρ c main_arg9 (by decide)).trans (b1_arg9 m ρ c)

/-! ## After the second host stretch: the aggregate, the column of squares, the bias row; the rest carried -/

theorem b3_v39 (c : Dev nD) : V3 m ρ c main_v39 = Cert.Stages.agg (Cert.Stages.xw (m ((c : Thread nD τ).loc main_arg0)) (m ((c : Thread nD τ).loc main_arg2))) (Cert.Stages.rowIx (m ((c : Thread nD τ).loc main_arg1))) (Cert.Stages.colIx (m ((c : Thread nD τ).loc main_arg1))) := by
  show StableHlo.after hostOps1 (W2 m ρ c) (Proc.devRef .tc main_v39) = _
  dsimp only [hostOps1]
  after_results_simp
  rw [b2_v4, b2_v1, b2_v3]
  rfl

theorem b3_v4 (c : Dev nD) : V3 m ρ c main_v4 = Cert.Stages.xw (m ((c : Thread nD τ).loc main_arg0)) (m ((c : Thread nD τ).loc main_arg2)) := by
  show StableHlo.after hostOps1 (W2 m ρ c) (Proc.devRef .tc main_v4) = _
  dsimp only [hostOps1]
  after_results_simp
  exact b2_v4 m ρ c

theorem b3_v41 (c : Dev nD) : V3 m ρ c main_v41
    = broadcastInDim Cert.ReferenceIdeal.S50000x1 ![0] Cert.ReferenceIdeal.Facts₀.bcast_S50000_S50000x1_0 (Cert.Stages.d2 (Cert.Stages.colIx (m ((c : Thread nD τ).loc main_arg1)))) := by
  show StableHlo.after hostOps1 (W2 m ρ c) (Proc.devRef .tc main_v41) = _
  dsimp only [hostOps1]
  after_results_simp
  rw [b2_v3]
  exact (Cert.Keepdims.col_50000 _ _ Cert.ReferenceIdeal.Facts₀.bcast_S50000_S50000x1_0).trans rfl

theorem b3_v42 (c : Dev nD) : V3 m ρ c main_v42
    = broadcastInDim Cert.ReferenceIdeal.S1x64 ![1] Cert.ReferenceIdeal.Facts₀.bcast_S64_S1x64_1 (m ((c : Thread nD τ).loc main_arg3)) := by
  show StableHlo.after hostOps1 (W2 m ρ c) (Proc.devRef .tc main_v42) = _
  dsimp only [hostOps1]
  after_results_simp
  rw [b2_arg3]
  exact Cert.Keepdims.row_64 _ _ Cert.ReferenceIdeal.Facts₀.bcast_S64_S1x64_1

theorem b3_v1 (c : Dev nD) : W3 m ρ c (Proc.devRef .tc main_v1) = Cert.Stages.rowIx (m ((c : Thread nD τ).loc main_arg1)) := by
  show StableHlo.after hostOps1 (W2 m ρ c) (Proc.devRef .tc main_v1) = _
  dsimp only [hostOps1]
  after_results_simp
  exact b2_v1 m ρ c

theorem b3_v3 (c : Dev nD) : W3 m ρ c (Proc.devRef .tc main_v3) = Cert.Stages.colIx (m ((c : Thread nD τ).loc main_arg1)) := by
  show StableHlo.after hostOps1 (W2 m ρ c) (Proc.devRef .tc main_v3) = _
  dsimp only [hostOps1]
  after_results_simp
  exact b2_v3 m ρ c

theorem b3_arg4 (c : Dev nD) : W3 m ρ c (Proc.devRef .tc main_arg4) = (m ((c : Thread nD τ).loc main_arg4)) := by
  show StableHlo.after hostOps1 (W2 m ρ c) (Proc.devRef .tc main_arg4) = _
  dsimp only [hostOps1]
  after_results_simp
  exact b2_arg4 m ρ c

theorem b3_arg6 (c : Dev nD) : W3 m ρ c (Proc.devRef .tc main_arg6) = (m ((c : Thread nD τ).loc main_arg6)) := by
  show StableHlo.after hostOps1 (W2 m ρ c) (Proc.devRef .tc main_arg6) = _
  dsimp only [hostOps1]
  after_results_simp
  exact b2_arg6 m ρ c

theorem b3_arg7 (c : Dev nD) : W3 m ρ c (Proc.devRef .tc main_arg7) = (m ((c : Thread nD τ).loc main_arg7)) := by
  show StableHlo.after hostOps1 (W2 m ρ c) (Proc.devRef .tc main_arg7) = _
  dsimp only [hostOps1]
  after_results_simp
  exact b2_arg7 m ρ c

theorem b3_arg8 (c : Dev nD) : W3 m ρ c (Proc.devRef .tc main_arg8) = (m ((c : Thread nD τ).loc main_arg8)) := by
  show StableHlo.after hostOps1 (W2 m ρ c) (Proc.devRef .tc main_arg8) = _
  dsimp only [hostOps1]
  after_results_simp
  exact b2_arg8 m ρ c

theorem b3_arg9 (c : Dev nD) : W3 m ρ c (Proc.devRef .tc main_arg9) = (m ((c : Thread nD τ).loc main_arg9)) := by
  show StableHlo.after hostOps1 (W2 m ρ c) (Proc.devRef .tc main_arg9) = _
  dsimp only [hostOps1]
  after_results_simp
  exact b2_arg9 m ρ c

/-! ## After the second launch: the node embeddings; every other buffer as before -/

theorem b4_v43 (c : Dev nD) : W4 m ρ c (Proc.devRef .tc main_v43) = Cert.Stages.embOf (m ((c : Thread nD τ).loc main_arg0)) (m ((c : Thread nD τ).loc main_arg1)) (m ((c : Thread nD τ).loc main_arg2)) (m ((c : Thread nD τ).loc main_arg3)) := by
  refine (W4_arr m ρ c 4).trans ((Cert.Region1.array (V3 m ρ) c).trans ?_)
  rw [b3_v39, b3_v4, b3_v41, b3_v42]
  rfl

theorem b4_v1 (c : Dev nD) : W4 m ρ c (Proc.devRef .tc main_v1) = Cert.Stages.rowIx (m ((c : Thread nD τ).loc main_arg1)) :=
  (W4_of_ne m ρ c main_v1 (by decide)).trans (b3_v1 m ρ c)

theorem b4_v3 (c : Dev nD) : W4 m ρ c (Proc.devRef .tc main_v3) = Cert.Stages.colIx (m ((c : Thread nD τ).loc main_arg1)) :=
  (W4_of_ne m ρ c main_v3 (by decide)).trans (b3_v3 m ρ c)

theorem b4_arg4 (c : Dev nD) : W4 m ρ c (Proc.devRef .tc main_arg4) = (m ((c : Thread nD τ).loc main_arg4)) :=
  (W4_of_ne m ρ c main_arg4 (by decide)).trans (b3_arg4 m ρ c)

theorem b4_arg6 (c : Dev nD) : W4 m ρ c (Proc.devRef .tc main_arg6) = (m ((c : Thread nD τ).loc main_arg6)) :=
  (W4_of_ne m ρ c main_arg6 (by decide)).trans (b3_arg6 m ρ c)

theorem b4_arg7 (c : Dev nD) : W4 m ρ c (Proc.devRef .tc main_arg7) = (m ((c : Thread nD τ).loc main_arg7)) :=
  (W4_of_ne m ρ c main_arg7 (by decide)).trans (b3_arg7 m ρ c)

theorem b4_arg8 (c : Dev nD) : W4 m ρ c (Proc.devRef .tc main_arg8) = (m ((c : Thread nD τ).loc main_arg8)) :=
  (W4_of_ne m ρ c main_arg8 (by decide)).trans (b3_arg8 m ρ c)

theorem b4_arg9 (c : Dev nD) : W4 m ρ c (Proc.devRef .tc main_arg9) = (m ((c : Thread nD τ).loc main_arg9)) :=
  (W4_of_ne m ρ c main_arg9 (by decide)).trans (b3_arg9 m ρ c)

/-! ## After the third host stretch: the edge features, the transposed weights, the bias row, the last bias -/

/-- The edge features from ANY contents the third host stretch may find: the two gathered embeddings side by side.
    Stated over an arbitrary valuation, so that reading the stretch unfolds the stretch's operations and nothing
    else. -/
theorem ef_read (X : Valuation τ sig (Elt Ideal)) :
    StableHlo.after hostOps2 X (Proc.devRef .tc main_v58)
      = Cert.Stages.ef (X (Proc.devRef .tc main_v43)) (X (Proc.devRef .tc main_v1)) (X (Proc.devRef .tc main_v3)) := by
  dsimp only [hostOps2]
  after_results_simp <;> rfl

theorem b5_v58_at4 (c : Dev nD) : V5 m ρ c main_v58
    = Cert.Stages.ef (W4 m ρ c (Proc.devRef .tc main_v43)) (W4 m ρ c (Proc.devRef .tc main_v1)) (W4 m ρ c (Proc.devRef .tc main_v3)) :=
  ef_read (W4 m ρ c)

theorem b5_v58 (c : Dev nD) : V5 m ρ c main_v58
    = Cert.Stages.ef (Cert.Stages.embOf (m ((c : Thread nD τ).loc main_arg0)) (m ((c : Thread nD τ).loc main_arg1)) (m ((c : Thread nD τ).loc main_arg2)) (m ((c : Thread nD τ).loc main_arg3))) (Cert.Stages.rowIx (m ((c : Thread nD τ).loc main_arg1))) (Cert.Stages.colIx (m ((c : Thread nD τ).loc main_arg1))) := by
  rw [b5_v58_at4, b4_v43, b4_v1, b4_v3]

theorem b5_v60 (c : Dev nD) : V5 m ρ c main_v60
    = transpose Cert.ReferenceIdeal.S128x256 [1, 0] (m ((c : Thread nD τ).loc main_arg4)) Cert.ReferenceIdeal.Facts₀.transposes_S256x128_S128x256_1_0 := by
  show StableHlo.after hostOps2 (W4 m ρ c) (Proc.devRef .tc main_v60) = _
  dsimp only [hostOps2]
  after_results_simp
  rw [b4_arg4]

theorem b5_v61 (c : Dev nD) : V5 m ρ c main_v61
    = transpose Cert.ReferenceIdeal.S64x1 [1, 0] (m ((c : Thread nD τ).loc main_arg8)) Cert.ReferenceIdeal.Facts₀.transposes_S1x64_S64x1_1_0 := by
  show StableHlo.after hostOps2 (W4 m ρ c) (Proc.devRef .tc main_v61) = _
  dsimp only [hostOps2]
  after_results_simp
  rw [b4_arg8]

theorem b5_v62 (c : Dev nD) : V5 m ρ c main_v62
    = broadcastInDim Cert.ReferenceIdeal.S1x256 ![1] Cert.ReferenceIdeal.Facts₀.bcast_S256_S1x256_1 (addf (F := Ideal) (s := Cert.ReferenceIdeal.S256) (φ := .f32) (m ((c : Thread nD τ).loc main_arg6)) (m ((c : Thread nD τ).loc main_arg7))) := by
  show StableHlo.after hostOps2 (W4 m ρ c) (Proc.devRef .tc main_v62) = _
  dsimp only [hostOps2]
  after_results_simp
  rw [b4_arg6, b4_arg7]
  exact Cert.Keepdims.row_256 _ _ Cert.ReferenceIdeal.Facts₀.bcast_S256_S1x256_1

theorem b5_v63 (c : Dev nD) : V5 m ρ c main_v63
    = broadcastInDim Cert.ReferenceIdeal.S1x1 ![1] Cert.ReferenceIdeal.Facts₀.bcast_S1_S1x1_1 (m ((c : Thread nD τ).loc main_arg9)) := by
  show StableHlo.after hostOps2 (W4 m ρ c) (Proc.devRef .tc main_v63) = _
  dsimp only [hostOps2]
  after_results_simp
  rw [b4_arg9]
  exact Cert.Keepdims.row_1 _ _ Cert.ReferenceIdeal.Facts₀.bcast_S1_S1x1_1

/-! ## After the third launch: the result -/

/-- The result buffer at the end of the kernel's run holds the stages composed, of the kernel's arguments. -/
theorem result (c : Dev nD) : W6 m ρ c (Proc.devRef .tc main_v64)
    = Cert.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  refine (W6_arr m ρ c 5).trans ((Cert.Region2.array (V5 m ρ) c).trans ?_)
  rw [b5_v58, b5_v60, b5_v62, b5_v61, b5_v63]
  rfl

end Cert.KernelIdeal.Fold

end
-- ==== Proof.RefTerm.lean ====
/-
  The reference's side. Its generated run ends with the result buffer at one composed term of the argument arrays; that
  term is, operation for operation, the composition of the stage functions (`Cert.Stages.out`): the stages were cut
  along the reference's own operations, so the equation is a definitional unfolding.
-/
import proofs.«172844_j25838523253465_1_alg».proof.Proof.Gen.ReferenceIdeal.Run
import proofs.«172844_j25838523253465_1_alg».proof.Proof.Stages

noncomputable section

namespace Cert.RefTerm

open Cert.ReferenceIdeal Cert.ReferenceIdeal.Gen Idealize.ShloMosaic Idealize.ShloMosaic.TcCoe Idealize.SL.Sem

variable {F : FTy → Type} [FloatOps F]

set_option maxRecDepth 8192 in
/-- The reference's result term is the stages composed, of the reference's arguments. -/
theorem res_eq (m : (ℓ : Loc nD τ sig) → Buf (Elt F) ℓ) (c : Dev nD) :
    Cert.ReferenceIdeal.Value.res_main_v94 m c
      = Cert.Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v94 Cert.Stages.out Cert.Stages.headR Cert.Stages.hid Cert.Stages.sig Cert.Stages.gates
    Cert.Stages.ef Cert.Stages.embOf Cert.Stages.embR Cert.Stages.d2 Cert.Stages.agg Cert.Stages.xw Cert.Stages.norm Cert.Stages.dinv
    Cert.Stages.asCol Cert.Stages.wrap Cert.Stages.colIx Cert.Stages.rowIx
  rfl

/-- Every weakly fair execution of the reference terminates with its result at the stages composed, of its arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = Cert.Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq m c), (h c).2⟩) (Cert.ReferenceIdeal.Value.run m ρ)

end Cert.RefTerm

end
-- ==== Proof.lean ====
/-
  The certificate. The kernel is a graph convolution followed by one recurrent step and a linear map, in three
  launches with host operations between them; the reference is the same computation in host operations only. Over
  the extended reals a change of float format is the identity, a matrix product into a zero accumulator is the plain
  sum, and the logistic function is `1 / (1 + exp (-x))`; so each launch leaves in its output array the same function
  of its input arrays that the reference's operations compute, and the host operations between the launches are the
  reference's own. Both results are therefore one function of the arguments (`Cert.Stages.out`), with no use of the
  finiteness of the inputs: no law is needed that fails at an infinity.
  The frames of the two kernel programs are the generated ones; the reference's frame is its run with the result
  dropped; the idealization rewrote no operation, so there is nothing to preserve beyond `True`.
-/
import proofs.«172844_j25838523253465_1_alg».proof.Defs
import proofs.«172844_j25838523253465_1_alg».proof.Proof.Gen.Kernel
import proofs.«172844_j25838523253465_1_alg».proof.Proof.Gen.Kernel.Skeleton
import proofs.«172844_j25838523253465_1_alg».proof.Proof.Gen.Kernel.Launch
import proofs.«172844_j25838523253465_1_alg».proof.Proof.Gen.Kernel.Points
import proofs.«172844_j25838523253465_1_alg».proof.Proof.Gen.Kernel.Frame
import proofs.«172844_j25838523253465_1_alg».proof.Proof.Gen.KernelIdeal
import proofs.«172844_j25838523253465_1_alg».proof.Proof.Gen.KernelIdeal.Skeleton
import proofs.«172844_j25838523253465_1_alg».proof.Proof.Gen.KernelIdeal.Launch
import proofs.«172844_j25838523253465_1_alg».proof.Proof.Gen.KernelIdeal.Points
import proofs.«172844_j25838523253465_1_alg».proof.Proof.Gen.KernelIdeal.Frame
import proofs.«172844_j25838523253465_1_alg».proof.Proof.Gen.ReferenceIdeal
import proofs.«172844_j25838523253465_1_alg».proof.Proof.Gen.Pre_finite_inputs
import proofs.«172844_j25838523253465_1_alg».proof.Proof.KRun
import proofs.«172844_j25838523253465_1_alg».proof.Proof.Fold
import proofs.«172844_j25838523253465_1_alg».proof.Proof.RefTerm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the idealized kernel ends with its result at the stages composed, of its arguments,
    and the arguments unchanged: the run with its result named, and what the last boundary's contents are. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64) = Cert.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun r h c => ⟨(h c).1.trans (Cert.KernelIdeal.Fold.result m ρ c), (h c).2⟩)
    (Cert.KernelIdeal.NamedRun.run (F := Ideal) m ρ)

/-- Both programs end with their result at the stages composed, of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.RefTerm.run (F := Ideal) m' ρ')
  obtain ⟨e0, e1, e2, e3, e4, -, e6, e7, e8, e9⟩ := hagree c
  rw [e0, e1, e2, e3, e4, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
